-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1000000 : Shape := ⟨2, ![2, 1000000]⟩
abbrev S4096x128 : Shape := ⟨2, ![4096, 128]⟩
abbrev S128x4096 : Shape := ⟨2, ![128, 4096]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S128x4096 : S_.BroadcastsInDim S128x4096 (![] : Fin 0 → Fin S128x4096.rank)
  reducesTo_S128x4096_S_d0_1 : S128x4096.ReducesTo [0, 1] S_
  bcast_S_S2x1000000 : S_.BroadcastsInDim S2x1000000 (![] : Fin 0 → Fin S2x1000000.rank)
  reducesTo_S2x1000000_S_d0_1 : S2x1000000.ReducesTo [0, 1] S_

variable [Facts]

def fn_part1 {F : FTy → Type} [FloatOps F] (main_arg0 : IVec S2x1000000 32) (main_v13 : IVec S_ 1) (main_v16 : IVec S128x4096 1) : IVec S_ 1 :=
  let main_c_5 : IVec S_ 1 := constantI S_ 1 1#1
  let main_v17 : IVec S_ 1 := (fun x v => Host.reduce IntOp.andi x v reducesTo_S128x4096_S_d0_1 h_S_) main_v16 main_c_5
  let main_v18 : IVec S_ 1 := andi main_v13 main_v17
  let main_c_6 : IVec S_ 32 := constantI S_ 32 0#32
  let main_v19 : IVec S2x1000000 32 := broadcastInDim S2x1000000 ![] bcast_S_S2x1000000 main_c_6
  let main_v20 : IVec S2x1000000 1 := cmpi .sge main_arg0 main_v19
  let main_c_7 : IVec S_ 1 := constantI S_ 1 1#1
  let main_v21 : IVec S_ 1 := (fun x v => Host.reduce IntOp.andi x v reducesTo_S2x1000000_S_d0_1 h_S_) main_v20 main_c_7
  let main_v22 : IVec S_ 1 := andi main_v18 main_v21
  let main_c_8 : IVec S_ 32 := constantI S_ 32 4096#32
  let main_v23 : IVec S2x1000000 32 := broadcastInDim S2x1000000 ![] bcast_S_S2x1000000 main_c_8
  let main_v24 : IVec S2x1000000 1 := cmpi .slt main_arg0 main_v23
  let main_c_9 : IVec S_ 1 := constantI S_ 1 1#1
  let main_v25 : IVec S_ 1 := (fun x v => Host.reduce IntOp.andi x v reducesTo_S2x1000000_S_d0_1 h_S_) main_v24 main_c_9
  let main_v26 : IVec S_ 1 := andi main_v22 main_v25
  main_v26

def fn {F : FTy → Type} [FloatOps F] (main_arg0 : IVec S2x1000000 32) (main_arg1 : FVec F S4096x128 .f32) (main_arg2 : FVec F S4096x128 .f32) (main_arg3 : FVec F S128x4096 .f32) (main_arg4 : FVec F S128x4096 .f32) : IVec S_ 1 :=
  let main_v0 : FVec F S4096x128 .f32 := Host.absf main_arg1
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x128 .f32 := Host.absf main_arg2
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S128x4096 .f32 := Host.absf main_arg3
  let main_cst_2 : FVec F S_ .f32 := constant S_ .f32 0x7F800000#32
  let main_v10 : FVec F S128x4096 .f32 := broadcastInDim S128x4096 ![] bcast_S_S128x4096 main_cst_2
  let main_v11 : IVec S128x4096 1 := cmpf .olt main_v9 main_v10
  let main_c_3 : IVec S_ 1 := constantI S_ 1 1#1
  let main_v12 : IVec S_ 1 := (fun x v => Host.reduce IntOp.andi x v reducesTo_S128x4096_S_d0_1 h_S_) main_v11 main_c_3
  let main_v13 : IVec S_ 1 := andi main_v8 main_v12
  let main_v14 : FVec F S128x4096 .f32 := Host.absf main_arg4
  let main_cst_4 : FVec F S_ .f32 := constant S_ .f32 0x7F800000#32
  let main_v15 : FVec F S128x4096 .f32 := broadcastInDim S128x4096 ![] bcast_S_S128x4096 main_cst_4
  let main_v16 : IVec S128x4096 1 := cmpf .olt main_v14 main_v15
  fn_part1 (F := F) main_arg0 main_v13 main_v16
-- ==== Kernel.lean ====
abbrev S2x1000000 : Shape := ⟨2, ![2, 1000000]⟩
abbrev S4096x128 : Shape := ⟨2, ![4096, 128]⟩
abbrev S128x4096 : Shape := ⟨2, ![128, 4096]⟩
abbrev S1x1000000 : Shape := ⟨2, ![1, 1000000]⟩
abbrev S1000000 : Shape := ⟨1, ![1000000]⟩
abbrev S1000000x1 : Shape := ⟨2, ![1000000, 1]⟩
abbrev S1000000x2 : Shape := ⟨2, ![1000000, 2]⟩
abbrev S_ : Shape := ⟨0, ![]⟩
abbrev S1001472x2 : Shape := ⟨2, ![1001472, 2]⟩
abbrev S1000000x128 : Shape := ⟨2, ![1000000, 128]⟩
abbrev S2048x2 : Shape := ⟨2, ![2048, 2]⟩
abbrev S2048x128 : Shape := ⟨2, ![2048, 128]⟩
abbrev S256x2 : Shape := ⟨2, ![256, 2]⟩
abbrev S256x1 : Shape := ⟨2, ![256, 1]⟩
abbrev S256x4096 : Shape := ⟨2, ![256, 4096]⟩
abbrev S256x128 : Shape := ⟨2, ![256, 128]⟩
abbrev S256 : Shape := ⟨1, ![256]⟩

abbrev nBuf : Space → Nat
  | .hbm => 26
  | .vmem => 8
  | .smem => 0
  | _ => 0

abbrev bufTy : (tb : Table) → Fin (tcTables nBuf tb) → BufTy
  | .hbm, ⟨0, _⟩ => ⟨S2x1000000, .i32⟩
  | .hbm, ⟨1, _⟩ => ⟨S4096x128, .f32⟩
  | .hbm, ⟨2, _⟩ => ⟨S4096x128, .f32⟩
  | .hbm, ⟨3, _⟩ => ⟨S128x4096, .f32⟩
  | .hbm, ⟨4, _⟩ => ⟨S128x4096, .f32⟩
  | .hbm, ⟨5, _⟩ => ⟨S1x1000000, .i32⟩
  | .hbm, ⟨6, _⟩ => ⟨S1000000, .i32⟩
  | .hbm, ⟨7, _⟩ => ⟨S1x1000000, .i32⟩
  | .hbm, ⟨8, _⟩ => ⟨S1000000, .i32⟩
  | .hbm, ⟨9, _⟩ => ⟨S1000000x1, .i32⟩
  | .hbm, ⟨10, _⟩ => ⟨S1000000x1, .i32⟩
  | .hbm, ⟨11, _⟩ => ⟨S1000000x2, .i32⟩
  | .hbm, ⟨12, _⟩ => ⟨S_, .i32⟩
  | .hbm, ⟨13, _⟩ => ⟨S_, .i32⟩
  | .hbm, ⟨14, _⟩ => ⟨S1001472x2, .i32⟩
  | .hbm, ⟨15, _⟩ => ⟨S4096x128, .f32⟩
  | .hbm, ⟨16, _⟩ => ⟨S4096x128, .f32⟩
  | .hbm, ⟨17, _⟩ => ⟨S4096x128, .bf16⟩
  | .hbm, ⟨18, _⟩ => ⟨S4096x128, .f32⟩
  | .hbm, ⟨19, _⟩ => ⟨S4096x128, .f32⟩
  | .hbm, ⟨20, _⟩ => ⟨S4096x128, .bf16⟩
  | .hbm, ⟨21, _⟩ => ⟨S4096x128, .bf16⟩
  | .hbm, ⟨22, _⟩ => ⟨S4096x128, .f32⟩
  | .hbm, ⟨23, _⟩ => ⟨S4096x128, .f32⟩
  | .hbm, ⟨24, _⟩ => ⟨S4096x128, .bf16⟩
  | .hbm, ⟨25, _⟩ => ⟨S1000000x128, .f32⟩
  | .local _ .vmem, ⟨0, _⟩ => ⟨S2048x2, .i32⟩
  | .local _ .vmem, ⟨1, _⟩ => ⟨S2048x2, .i32⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S2048x128, .f32⟩
  | .local _ .vmem, ⟨7, _⟩ => ⟨S2048x128, .f32⟩
  | _, _ => ⟨S2x1000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![489], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32_2 : BitVec 32 := 0#32
  let c0_i32 : BitVec 32 := 0#32
  let c1_i32 : BitVec 32 := 1#32
  let arg7 : BitVec 32 := Scf.iv c0_i32 c1_i32 k0_t1
  let c1_i32_1 : BitVec 32 := 1#32
  let v1 : BitVec 32 := Scalar.muli arg7 c1_i32_1
  let v2 : BitVec 32 := Scalar.addi c0_i32_2 v1
  let c256_i32 : BitVec 32 := 256#32
  let v3 : BitVec 32 := Scalar.muli v2 c256_i32
  v3
def k0_off1 (k0_t1 : Fin k0_t1_loop.trips) : Fin 2 → Nat :=
  let c0_i32_2 : BitVec 32 := 0#32
  let c0_i32 : BitVec 32 := 0#32
  let c1_i32 : BitVec 32 := 1#32
  let arg7 : BitVec 32 := Scf.iv c0_i32 c1_i32 k0_t1
  let c1_i32_1 : BitVec 32 := 1#32
  let v1 : BitVec 32 := Scalar.muli arg7 c1_i32_1
  let v2 : BitVec 32 := Scalar.addi c0_i32_2 v1
  let c256_i32 : BitVec 32 := 256#32
  let v3 : BitVec 32 := Scalar.muli v2 c256_i32
  let v4 : BitVec 32 := v3
  let v5 : Index := Scalar.indexCast v4
  let c0 : Index := 0#32
  ![v5.toNat, 0]
def k0_off2 (k0_t1 : Fin k0_t1_loop.trips) : Fin 2 → Nat :=
  let c0_i32_2 : BitVec 32 := 0#32
  let c0_i32 : BitVec 32 := 0#32
  let c1_i32 : BitVec 32 := 1#32
  let arg7 : BitVec 32 := Scf.iv c0_i32 c1_i32 k0_t1
  let c1_i32_1 : BitVec 32 := 1#32
  let v1 : BitVec 32 := Scalar.muli arg7 c1_i32_1
  let v2 : BitVec 32 := Scalar.addi c0_i32_2 v1
  let c256_i32 : BitVec 32 := 256#32
  let v3 : BitVec 32 := Scalar.muli v2 c256_i32
  let v4 : BitVec 32 := v3
  let v44 : Index := Scalar.indexCast v4
  let c0_16 : Index := 0#32
  ![v44.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x2 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S1000000_S1000000x1_0 : S1000000.BroadcastsInDim S1000000x1 (![0] : Fin 1 → Fin S1000000x1.rank)
  concatenates_S1000000x1_S1000000x1_S1000000x2_d1 : Shape.Concatenates [S1000000x1, S1000000x1] S1000000x2 1
  pads_S1000000x2_S1001472x2_014720_000 : S1000000x2.Pads (![0, 0] : Fin 2 → Nat) ![1472, 0] ![0, 0] S1001472x2
  h_S_ : 0 < S_.numel
  transposes_S128x4096_S4096x128_1_0 : S128x4096.Transposes [1, 0] S4096x128
  bitsLt_bf16_f32 : FTy.bits .bf16 < FTy.bits .f32
  h_S256x2 : 0 < S256x2.numel
  shapeCasts_S256x2_S256x2 : S256x2.ShapeCasts S256x2
  slices_S256x2_o0_0_S256x1 : S256x2.Slices ![0, 0] S256x1
  slices_S256x2_o0_1_S256x1 : S256x2.Slices ![0, 1] S256x1
  iota_S256x4096_d1_w32 : S256x4096.Iotas .tc 32 [1]
  broadcasts_S256x1_S256x4096 : S256x1.Broadcasts S256x4096
  natLt_1_32 : 1 < 32
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  reduces_S256x128_S256 : S256x128.Reduces [1] S256
  shapeCasts_S256_S256x1 : S256.ShapeCasts S256x1
  broadcasts_S256x1_S256x128 : S256x1.Broadcasts S256x128
  h_S256x128 : 0 < S256x128.numel
  dot_S256x4096_S4096x128_S256x128_1_0_0_1_n_n_wf : DotDims.WF S256x4096 S4096x128 S256x128 [1] [0] [0] [1] [] []
  hrank0 : 0 < grid0.rank
  k0_t1_ok : k0_t1_loop.OK
  k0_mult1_dvd : ∀ k0_t1 : Fin k0_t1_loop.trips, 256 ∣ (k0_mult1 k0_t1).toNat
  k0_off1_inb : ∀ k0_t1 : Fin k0_t1_loop.trips, ∀ a, (k0_off1 k0_t1) a + S256x2.size a ≤ S2048x2.size a
  k0_off2_inb : ∀ k0_t1 : Fin k0_t1_loop.trips, ∀ a, (k0_off2 k0_t1) a + S256x128.size a ≤ S2048x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2.size a ≤ S1001472x2.size a
  hwx0_0 : ∀ i : grid0.Coords, EltTy.bits .i32 = 32 ∨ (Rect.block (s := S1001472x2) S2048x2.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S4096x128.size a
  hwx0_1 : ∀ i : grid0.Coords, EltTy.bits .bf16 = 32 ∨ (Rect.block (s := S4096x128) S4096x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S4096x128.size a
  hwx0_2 : ∀ i : grid0.Coords, EltTy.bits .bf16 = 32 ∨ (Rect.block (s := S4096x128) S4096x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S4096x128.size a
  hwx0_3 : ∀ i : grid0.Coords, EltTy.bits .bf16 = 32 ∨ (Rect.block (s := S4096x128) S4096x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x128.size a ≤ S4096x128.size a
  hwx0_4 : ∀ i : grid0.Coords, EltTy.bits .bf16 = 32 ∨ (Rect.block (s := S4096x128) S4096x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S2048x128.size a < S1000000x128.size a
  hwx0_5 : ∀ i : grid0.Coords, EltTy.bits .f32 = 32 ∨ (Rect.unit (s := S1000000x128) (fun a => cc0_transform_5 i a * S2048x128.size a) (fun a => (Pipeline.Clip.of (cc0_transform_5 i a) (S2048x128.size a) (S1000000x128.size a)).extent (S2048x128.size a)) fun a => Pipeline.Clip.inb (Pipeline.Clip.ok_of (hstart0_5 i a))).WholeWords (EltTy.packing .f32)
  hwxs0_5 : ∀ i : grid0.Coords, EltTy.bits .f32 = 32 ∨ (Rect.unit (s := S2048x128) (fun _ => 0) (fun a => (Pipeline.Clip.of (cc0_transform_5 i a) (S2048x128.size a) (S1000000x128.size a)).extent (S2048x128.size a)) fun a => (Nat.zero_add _).trans_le (Pipeline.Clip.extent_le (Pipeline.Clip.ok_of (hstart0_5 i a)))).WholeWords (EltTy.packing .f32)

variable [Facts₀]

def dot_S256x4096_S4096x128_S256x128_1_0_0_1_n_n : DotDims S256x4096 S4096x128 S256x128 where
  lhsContracting := [1]
  rhsContracting := [0]
  lhsNonContracting := [0]
  rhsNonContracting := [1]
  lhsBatch := []
  rhsBatch := []
  wf := dot_S256x4096_S4096x128_S256x128_1_0_0_1_n_n_wf

abbrev win0_0 : Pipeline.Window sig grid0 :=
  Pipeline.Window.ofSpec (Memref.whole main_v7) S2048x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S4096x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S4096x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S4096x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S4096x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpecClip (Memref.whole main_v18) S2048x128.size cc0_transform_5 reads0_5 true false 2 stage0_5 sem0_5
    hrank0 hreads0_5 hstart0_5 nbuf0_5 (Memref.isWhole_whole _) hwx0_5 hwxs0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x1000000 : Shape := ⟨2, ![2, 1000000]⟩
abbrev S4096x128 : Shape := ⟨2, ![4096, 128]⟩
abbrev S128x4096 : Shape := ⟨2, ![128, 4096]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1 : Shape := ⟨1, ![1]⟩
abbrev S1x1 : Shape := ⟨2, ![1, 1]⟩
abbrev S128x1000000 : Shape := ⟨2, ![128, 1000000]⟩
abbrev S1000000x128 : Shape := ⟨2, ![1000000, 128]⟩

abbrev nBuf : Space → Nat
  | .hbm => 68
  | .vmem => 0
  | .smem => 0
  | _ => 0

abbrev bufTy : (tb : Table) → Fin (tcTables nBuf tb) → BufTy
  | .hbm, ⟨0, _⟩ => ⟨S2x1000000, .i32⟩
  | .hbm, ⟨1, _⟩ => ⟨S4096x128, .f32⟩
  | .hbm, ⟨2, _⟩ => ⟨S4096x128, .f32⟩
  | .hbm, ⟨3, _⟩ => ⟨S128x4096, .f32⟩
  | .hbm, ⟨4, _⟩ => ⟨S128x4096, .f32⟩
  | .hbm, ⟨5, _⟩ => ⟨S1x1000000, .i32⟩
  | .hbm, ⟨6, _⟩ => ⟨S1000000, .i32⟩
  | .hbm, ⟨7, _⟩ => ⟨S_, .i32⟩
  | .hbm, ⟨8, _⟩ => ⟨S1000000, .i32⟩
  | .hbm, ⟨9, _⟩ => ⟨S1000000, .i1⟩
  | .hbm, ⟨10, _⟩ => ⟨S_, .i32⟩
  | .hbm, ⟨11, _⟩ => ⟨S1000000, .i32⟩
  | .hbm, ⟨12, _⟩ => ⟨S1000000, .i32⟩
  | .hbm, ⟨13, _⟩ => ⟨S1000000, .i32⟩
  | .hbm, ⟨14, _⟩ => ⟨S1000000x1, .i32⟩
  | .hbm, ⟨15, _⟩ => ⟨S1, .i32⟩
  | .hbm, ⟨16, _⟩ => ⟨S_, .i32⟩
  | .hbm, ⟨17, _⟩ => ⟨S1000000x1, .i32⟩
  | .hbm, ⟨18, _⟩ => ⟨S1000000x1, .i1⟩
  | .hbm, ⟨19, _⟩ => ⟨S1x1, .i32⟩
  | .hbm, ⟨20, _⟩ => ⟨S1000000x1, .i32⟩
  | .hbm, ⟨21, _⟩ => ⟨S1000000x1, .i1⟩
  | .hbm, ⟨22, _⟩ => ⟨S1000000x1, .i1⟩
  | .hbm, ⟨23, _⟩ => ⟨S_, .i1⟩
  | .hbm, ⟨24, _⟩ => ⟨S1000000, .i1⟩
  | .hbm, ⟨25, _⟩ => ⟨S128x1000000, .f32⟩
  | .hbm, ⟨26, _⟩ => ⟨S128x1000000, .i1⟩
  | .hbm, ⟨27, _⟩ => ⟨S_, .f32⟩
  | .hbm, ⟨28, _⟩ => ⟨S128x1000000, .f32⟩
  | .hbm, ⟨29, _⟩ => ⟨S128x1000000, .f32⟩
  | .hbm, ⟨30, _⟩ => ⟨S1000000x128, .f32⟩
  | .hbm, ⟨31, _⟩ => ⟨S1x1000000, .i32⟩
  | .hbm, ⟨32, _⟩ => ⟨S1000000, .i32⟩
  | .hbm, ⟨33, _⟩ => ⟨S_, .i32⟩
  | .hbm, ⟨34, _⟩ => ⟨S1000000, .i32⟩
  | .hbm, ⟨35, _⟩ => ⟨S1000000, .i1⟩
  | .hbm, ⟨36, _⟩ => ⟨S_, .i32⟩
  | .hbm, ⟨37, _⟩ => ⟨S1000000, .i32⟩
  | .hbm, ⟨38, _⟩ => ⟨S1000000, .i32⟩
  | .hbm, ⟨39, _⟩ => ⟨S1000000, .i32⟩
  | .hbm, ⟨40, _⟩ => ⟨S1000000x1, .i32⟩
  | .hbm, ⟨41, _⟩ => ⟨S1, .i32⟩
  | .hbm, ⟨42, _⟩ => ⟨S_, .i32⟩
  | .hbm, ⟨43, _⟩ => ⟨S1000000x1, .i32⟩
  | .hbm, ⟨44, _⟩ => ⟨S1000000x1, .i1⟩
  | .hbm, ⟨45, _⟩ => ⟨S1x1, .i32⟩
  | .hbm, ⟨46, _⟩ => ⟨S1000000x1, .i32⟩
  | .hbm, ⟨47, _⟩ => ⟨S1000000x1, .i1⟩
  | .hbm, ⟨48, _⟩ => ⟨S1000000x1, .i1⟩
  | .hbm, ⟨49, _⟩ => ⟨S_, .i1⟩
  | .hbm, ⟨50, _⟩ => ⟨S1000000, .i1⟩
  | .hbm, ⟨51, _⟩ => ⟨S128x1000000, .f32⟩
  | .hbm, ⟨52, _⟩ => ⟨S128x1000000, .i1⟩
  | .hbm, ⟨53, _⟩ => ⟨S_, .f32⟩
  | .hbm, ⟨54, _⟩ => ⟨S128x1000000, .f32⟩
  | .hbm, ⟨55, _⟩ => ⟨S128x1000000, .f32⟩
  | .hbm, ⟨56, _⟩ => ⟨S1000000x128, .f32⟩
  | .hbm, ⟨57, _⟩ => ⟨S1000000x128, .f32⟩
  | .hbm, ⟨58, _⟩ => ⟨S1000000x128, .f32⟩
  | .hbm, ⟨59, _⟩ => ⟨S_, .f32⟩
  | .hbm, ⟨60, _⟩ => ⟨S1000000, .f32⟩
  | .hbm, ⟨61, _⟩ => ⟨S1000000x1, .f32⟩
  | .hbm, ⟨62, _⟩ => ⟨S1000000x1, .f32⟩
  | .hbm, ⟨63, _⟩ => ⟨S_, .f32⟩
  | .hbm, ⟨64, _⟩ => ⟨S1000000x1, .f32⟩
  | .hbm, ⟨65, _⟩ => ⟨S1000000x1, .f32⟩
  | .hbm, ⟨66, _⟩ => ⟨S1000000x128, .f32⟩
  | .hbm, ⟨67, _⟩ => ⟨S1000000x128, .f32⟩
  | _, _ => ⟨S2x1000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v6 : Ref sig .tc := ⟨.hbm, 55, rfl⟩
abbrev main_v7 : Ref sig .tc := ⟨.hbm, 56, rfl⟩
abbrev main_v8 : Ref sig .tc := ⟨.hbm, 57, rfl⟩
abbrev main_call2_v0 : Ref sig .tc := ⟨.hbm, 58, rfl⟩
abbrev main_call2_cst : Ref sig .tc := ⟨.hbm, 59, rfl⟩
abbrev main_call2_v1 : Ref sig .tc := ⟨.hbm, 60, rfl⟩
abbrev main_call2_v2 : Ref sig .tc := ⟨.hbm, 61, rfl⟩
abbrev main_v9 : Ref sig .tc := ⟨.hbm, 62, rfl⟩
abbrev main_cst : Ref sig .tc := ⟨.hbm, 63, rfl⟩
abbrev main_v10 : Ref sig .tc := ⟨.hbm, 64, rfl⟩
abbrev main_v11 : Ref sig .tc := ⟨.hbm, 65, rfl⟩
abbrev main_v12 : Ref sig .tc := ⟨.hbm, 66, rfl⟩
abbrev main_v13 : Ref sig .tc := ⟨.hbm, 67, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x1_S1000000_d1 : S1000000x1.ReducesTo [1] S1000000
  h_S_ : 0 < S_.numel
  bcast_S1000000_S128x1000000_1 : S1000000.BroadcastsInDim S128x1000000 (![1] : Fin 1 → Fin S128x1000000.rank)
  bcast_S_S128x1000000 : S_.BroadcastsInDim S128x1000000 (![] : Fin 0 → Fin S128x1000000.rank)
  transposes_S128x1000000_S1000000x128_1_0 : S128x1000000.Transposes [1, 0] S1000000x128
  slices_S2x1000000_S1x1000000_1_0 : S2x1000000.Slices ![1, 0] S1x1000000
  reducesTo_S1000000x128_S1000000_d1 : S1000000x128.ReducesTo [1] S1000000
  bcast_S1000000x1_S1000000x128_0_1 : S1000000x1.BroadcastsInDim S1000000x128 (![0, 1] : Fin 2 → Fin S1000000x128.rank)
  gather_S128x4096_S1000000x1_S128x1000000_0_1_n_n_1_1_1281_wf : GatherDims.WF S128x4096 S1000000x1 S128x1000000 [0] [1] [] [1] [] 1 ![128, 1]

variable [Facts₀]

def gather_S128x4096_S1000000x1_S128x1000000_0_1_n_n_1_1_1281 : GatherDims S128x4096 S1000000x1 S128x1000000 where
  offsetDims := [0]
  collapsedSliceDims := [1]
  operandBatchingDims := []
  startIndicesBatchingDims := []
  startIndexMap := [1]
  indexVectorDim := 1
  sliceSizes := ![128, 1]
  wf := gather_S128x4096_S1000000x1_S128x1000000_0_1_n_n_1_1_1281_wf

class Facts : Prop extends Facts₀ where

variable [Facts]
-- ==== Proof.Spec.lean ====
/-
  The function both programs compute, stated once, index by index, on the extended reals.

  Pair `r` names a column `a r` of the first projection `W1 : [128, 4096]` and a column `b r` of the second. The
  interaction of the pair is the elementwise product of the two columns, a vector of 128 entries, and the result's row
  `r` is that vector divided by the larger of its Euclidean norm and a fixed positive threshold:

      out[r, j] = p r j / max (sqrt (Σ_j' (p r j')²)) eps,   p r j = W1[j, a r] · W2[j, b r].

  An index word names the column whose number is the word's value; the definition reduces the value modulo 4096 so
  that it is total, and every statement that uses it carries the hypothesis that the words are below 4096.
-/
import Idealize.ShloMosaic.PureOps.Ideal
import Idealize.ShloMosaic.Lib.ValueIdx

noncomputable section

open scoped BigOperators

namespace Cert.Spec

open Idealize.ShloMosaic Idealize.ShloMosaic.ValueIdx

/-- The index pairs: row 0 the columns of the first projection, row 1 those of the second. -/
abbrev Pairs : Type := (⟨2, ![2, 1000000]⟩ : Shape).Idx → BitVec 32
/-- A projection matrix, 128 rows by 4096 columns. -/
abbrev Proj : Type := (⟨2, ![128, 4096]⟩ : Shape).Idx → EReal
/-- The result, one row of 128 entries per pair. -/
abbrev Out : Type := (⟨2, ![1000000, 128]⟩ : Shape).Idx → EReal

/-- Every index word is a column number. -/
def InRange (idx : Pairs) : Prop := ∀ i, (idx i).toNat < 4096

/-- Every entry of a projection is a real number. -/
def Finite (W : Proj) : Prop := ∀ i, W i ≠ ⊤ ∧ W i ≠ ⊥

/-- The column an index word names. -/
def colOf (w : BitVec 32) : Fin 4096 := ⟨w.toNat % 4096, Nat.mod_lt _ (by norm_num)⟩

theorem colOf_val {w : BitVec 32} (h : w.toNat < 4096) : (colOf w).val = w.toNat := Nat.mod_eq_of_lt h

/-- Entry `j` of the column of `W` that the word `w` names. -/
def pick (W : Proj) (w : BitVec 32) (j : Fin 128) : EReal := W (ix2 j (colOf w))

/-- Entry `j` of pair `r`'s interaction: the product of the two picked entries. -/
def interaction (idx : Pairs) (W1 W2 : Proj) (r : Fin 1000000) (j : Fin 128) : EReal :=
  pick W1 (idx (ix2 (0 : Fin 2) r)) j * pick W2 (idx (ix2 (1 : Fin 2) r)) j

/-- The squared Euclidean norm of pair `r`'s interaction. -/
def sqNorm (idx : Pairs) (W1 W2 : Proj) (r : Fin 1000000) : EReal :=
  ∑ j : Fin 128, interaction idx W1 W2 r j * interaction idx W1 W2 r j

/-- The threshold below which a norm is not divided by. -/
def eps : EReal := Ideal.ofBits .f32 0x2B8CBCCC#32

/-- Entry `(r, j)` of the result. -/
def unitAt (idx : Pairs) (W1 W2 : Proj) (r : Fin 1000000) (j : Fin 128) : EReal :=
  Ideal.div (interaction idx W1 W2 r j) (max (Ideal.sqrt (sqNorm idx W1 W2 r)) eps)

/-- The whole result. -/
def unitInteraction (idx : Pairs) (W1 W2 : Proj) : Out :=
  fun i => unitAt idx W1 W2 ⟨(i 0).val, idx2_lt0 i⟩ ⟨(i 1).val, idx2_lt1 i⟩

theorem unitInteraction_ix2 (idx : Pairs) (W1 W2 : Proj) (r : Fin 1000000) (j : Fin 128) :
    unitInteraction idx W1 W2 (ix2 r j) = unitAt idx W1 W2 r j := rfl

end Cert.Spec

end
-- ==== Proof.PreDecode.lean ====
/-
  The precondition, read back.

  The precondition is one bit: the conjunction of six "for all entries" tests. Four say that the absolute value of
  every entry of a float array is below plus infinity; two say that every index word is at least 0 and below 4096 as a
  signed number. A conjunction of bits is 1 only when each bit is 1, and a "for all" folded by `and` is 1 only when
  every entry's bit is 1, so the one equation gives a fact per entry:

    * on the extended reals, max x (-x) < ⊤ holds exactly when x is neither ⊤ nor ⊥, so every entry of the two
      projection matrices is a real number;
    * a 32-bit word w with 0 ≤ w and w < 4096, both read signed, has its sign bit clear, so its unsigned value is its
      signed value and is below 4096.
-/
import Idealize.ShloMosaic.Lib.ReduceAll
import Idealize.ShloMosaic.Lib.ValueIdx
import Idealize.ShloMosaic.PureOps.Ideal.Laws
import proofs.«403882_j15375982920237_3_alg».proof.Pre_finite_inputs
import proofs.«403882_j15375982920237_3_alg».proof.Proof.Spec

noncomputable section

namespace Cert.PreDecode

open Idealize.ShloMosaic Cert.Pre_finite_inputs

/-- The shape with no axes has one index. -/
instance : Subsingleton S_.Idx := ⟨fun a b => funext fun d => d.elim0⟩

/-- The pattern 0x7F800000 denotes plus infinity. -/
theorem inf_bits : Ideal.ofBits .f32 0x7F800000#32 = (⊤ : EReal) := by simp [Ideal.ofBits, Ideal.ieee]

/-- An extended real whose absolute value is below plus infinity is a real number. -/
theorem real_of_abs_lt (x : EReal) (h : Ideal.cmp .olt (max x (-x)) ⊤ = 1#1) : x ≠ ⊤ ∧ x ≠ ⊥ := by
  unfold Ideal.cmp at h
  constructor
  · rintro rfl
    simp at h
  · rintro rfl
    simp at h

/-- A word that is at least 0 and below 4096, read signed, is below 4096 read unsigned. -/
theorem word_lt (w : BitVec 32) (h0 : IntOp.cmpi .sge w 0#32 = 1#1) (h1 : IntOp.cmpi .slt w 4096#32 = 1#1) :
    w.toNat < 4096 := by
  rw [IntOp.cmpi_sge] at h0
  rw [IntOp.cmpi_slt] at h1
  have e0 : (0#32 : BitVec 32).toInt = 0 := by decide
  have e1 : (4096#32 : BitVec 32).toInt = 4096 := by decide
  rw [e0] at h0
  rw [e1] at h1
  have hw := w.isLt
  rw [BitVec.toInt_eq_toNat_cond] at h0 h1
  split at h0 <;> omega

theorem decode [Cert.Pre_finite_inputs.Facts] (a0 : IVec S2x1000000 32) (a1 a2 : FVec Ideal S4096x128 .f32) (a3 a4 : FVec Ideal S128x4096 .f32)
    (h : Cert.Pre_finite_inputs.fn (F := Ideal) a0 a1 a2 a3 a4 = fun _ => 1#1) :
    Cert.Spec.InRange a0 ∧ Cert.Spec.Finite a3 ∧ Cert.Spec.Finite a4 := by
  have e := congrFun h ValueIdx.ix0
  dsimp only [fn, fn_part1] at e
  obtain ⟨e, hlt⟩ := IntOp.andi_eq_one.1 e
  obtain ⟨e, hge⟩ := IntOp.andi_eq_one.1 e
  obtain ⟨e, hf4⟩ := IntOp.andi_eq_one.1 e
  obtain ⟨-, hf3⟩ := IntOp.andi_eq_one.1 e
  refine ⟨fun i => ?_, fun i => ?_, fun i => ?_⟩
  · exact word_lt (a0 i) (Host.reduce_andi_all _ _ _ _ _ hge i) (Host.reduce_andi_all _ _ _ _ _ hlt i)
  · have g := Host.reduce_andi_all _ _ _ _ _ hf3 i
    refine real_of_abs_lt (a3 i) ?_
    rw [← inf_bits]
    exact g
  · have g := Host.reduce_andi_all _ _ _ _ _ hf4 i
    refine real_of_abs_lt (a4 i) ?_
    rw [← inf_bits]
    exact g

end Cert.PreDecode

end
-- ==== Proof.KTrip.lean ====
/-
  What the kernel body leaves in its output block, as ONE function of the blocks it reads.

  The body is a loop of eight trips. Trip `k` reads rows `256 k … 256 k + 255` of the block of index pairs (a chunk of 256
  pairs) and the four tables whole, and stores one `256 × 128` tile — the normalised products of the rows the chunk's
  pairs pick — at rows `256 k …` of the output block. The eight tiles are disjoint and cover the `2048 × 128` block, so
  the block ends holding, at row `y₀` and lane `y₁`, trip `y₀ / 256`'s tile at row `y₀ % 256` and lane `y₁`.
-/
import proofs.«403882_j15375982920237_3_alg».proof.Proof.Gen.KernelIdeal.Frame
import Idealize.ShloMosaic.Lib.Pipeline.Value
import Idealize.ShloMosaic.Lib.ValueIdx
import Idealize.ShloMosaic.Lib.Tactic

noncomputable section

namespace Cert.KTrip

open Cert.KernelIdeal Cert.KernelIdeal.Gen Idealize.ShloMosaic Idealize.ShloMosaic.TcCoe Idealize.ShloMosaic.Tactic
open Idealize.ShloMosaic.ValueIdx Idealize.SL.Sem

variable {F : FTy → Type} [FloatOps F]

/-- The loop runs eight trips. -/
theorem trips_eq : k0_t1_loop.trips = 8 := by decide

/-- Chunk `k` of a block of index pairs: its rows `256 k … 256 k + 255`. -/
def chunk (x0 : Vec F S2048x2 .i32) (k : Fin k0_t1_loop.trips) : Vec F S256x2 .i32 :=
  View.ld x0 (Rect.unit (k0_off1 k) S256x2.size (k0_off1_inb k))

/-- The tile trip `k` stores: the body's arithmetic on chunk `k` and the four tables. -/
def tile (x0 : Vec F S2048x2 .i32) (x1 x2 x3 x4 : Vec F S4096x128 .bf16) (k : Fin k0_t1_loop.trips) : Vec F S256x128 .f32 :=
  k0_pay1 (k0_pay2 (chunk x0 k) x1 x2 x3 x4) (k0_pay3 (chunk x0 k) x1 x2 x3 x4)

/-- The rectangle trip `k` stores through: rows `256 k …`, all lanes. -/
abbrev tileRect (k : Fin k0_t1_loop.trips) : Rect S2048x128 := Rect.unit (k0_off2 k) S256x128.size (k0_off2_inb k)

/-- One trip's store, read off the run of the trip: one piece, the tile through its rectangle. -/
theorem trip_piece (𝒱 : Variants) (bd : Option 𝒱.V) (c : Dev nD) (i : grid0.Coords) (arg1 : Memref sig .tc .vmem S2048x2 .i32) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S2048x128 .f32) (harg6 : arg6.IsWhole) (x0 : Vec F S2048x2 .i32) (x1 x2 x3 x4 : Vec F S4096x128 .bf16) (k : Fin k0_t1_loop.trips) :
    tripL_k0_t1 (F := F) 𝒱 c bd i arg1 harg1 arg2 harg2 arg3 harg3 arg4 harg4 arg5 harg5 arg6 harg6 (harg1.unread x0) (harg2.unread x1) (harg3.unread x2) (harg4.unread x3) (harg5.unread x4) k
      = [⟨tileRect k, tile x0 x1 x2 x3 x4 k⟩] := by
  have hz : (![0, 0] : Fin 2 → Nat) = fun _ => 0 := funext fun a => by fin_cases a <;> rfl
  unfold tripL_k0_t1 trip_k0_t1
  dsimp only
  sl_unfold_words
  simp only [View.readAt_eq_ld, Memref.IsWhole.read_unread, View.ld_unit_zero (S := S4096x128) hz]
  rfl

/-- The pieces of the trips before `n` are the tiles of the trips before `n`, each through its rectangle. -/
theorem mem_pieces (𝒱 : Variants) (bd : Option 𝒱.V) (c : Dev nD) (i : grid0.Coords) (arg1 : Memref sig .tc .vmem S2048x2 .i32) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S2048x128 .f32) (harg6 : arg6.IsWhole) (x0 : Vec F S2048x2 .i32) (x1 x2 x3 x4 : Vec F S4096x128 .bf16) :
    ∀ (n : ℕ), n ≤ k0_t1_loop.trips → ∀ p ∈ pb_k0_t1 (F := F) 𝒱 c bd i arg1 harg1 arg2 harg2 arg3 harg3 arg4 harg4 arg5 harg5 arg6 harg6 (harg1.unread x0) (harg2.unread x1) (harg3.unread x2) (harg4.unread x3) (harg5.unread x4) n,
      ∃ k : Fin k0_t1_loop.trips, p = ⟨tileRect k, tile x0 x1 x2 x3 x4 k⟩
  | 0, _, p, hp => by rw [pb_k0_t1.eq_1] at hp; exact absurd hp List.not_mem_nil
  | n + 1, hn, p, hp => by
    have e := pb_k0_t1_succ (F := F) 𝒱 c bd i arg1 harg1 arg2 harg2 arg3 harg3 arg4 harg4 arg5 harg5 arg6 harg6 (harg1.unread x0) (harg2.unread x1) (harg3.unread x2) (harg4.unread x3) (harg5.unread x4) ⟨n, hn⟩
    rw [show (⟨n, hn⟩ : Fin k0_t1_loop.trips).val + 1 = n + 1 from rfl, trip_piece] at e
    rw [e] at hp
    rcases List.mem_append.mp hp with h | h
    · exact ⟨⟨n, hn⟩, List.mem_singleton.mp h⟩
    · exact mem_pieces 𝒱 bd c i arg1 harg1 arg2 harg2 arg3 harg3 arg4 harg4 arg5 harg5 arg6 harg6 x0 x1 x2 x3 x4 n (Nat.le_of_succ_le hn) p h

/-- The pieces the whole body leaves: those of all its trips. -/
theorem run_pieces (c : Dev nD) (i : grid0.Coords) (arg1 : Memref sig .tc .vmem S2048x2 .i32) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S2048x128 .f32) (harg6 : arg6.IsWhole) (x0 : Vec F S2048x2 .i32) (x1 x2 x3 x4 : Vec F S4096x128 .bf16) :
    (kernelRun0_A (F := F) c i arg1 harg1 arg2 harg2 arg3 harg3 arg4 harg4 arg5 harg5 arg6 harg6 x0 x1 x2 x3 x4).1
      = pb_k0_t1 (F := F) Variants.none c none i arg1 harg1 arg2 harg2 arg3 harg3 arg4 harg4 arg5 harg5 arg6 harg6 (harg1.unread x0) (harg2.unread x1) (harg3.unread x2) (harg4.unread x3) (harg5.unread x4) k0_t1_loop.trips := by
  unfold kernelRun0_A
  rfl

/-- THE BLOCK the body leaves, as one function of what it reads: at row `y₀` and lane `y₁`, trip `y₀ / 256`'s tile at row
    `y₀ % 256` and lane `y₁`. -/
def blockFn (x0 : Vec F S2048x2 .i32) (x1 x2 x3 x4 : Vec F S4096x128 .bf16) : Vec F S2048x128 .f32 := fun y =>
  tile x0 x1 x2 x3 x4 ⟨(y 0).val / 256, by rw [trips_eq]; have := idx2_lt0 y; omega⟩
    (ix2 ⟨(y 0).val % 256, Nat.mod_lt _ (by norm_num)⟩ ⟨(y 1).val, idx2_lt1 y⟩)

/-- A tile is the block function read through the tile's rectangle: row `x₀` of tile `k` sits at row `256 k + x₀`. -/
theorem tile_eq_blockFn (x0 : Vec F S2048x2 .i32) (x1 x2 x3 x4 : Vec F S4096x128 .bf16) (k : Fin k0_t1_loop.trips) (x : (tileRect k).shape.Idx) :
    tile x0 x1 x2 x3 x4 k x = blockFn x0 x1 x2 x3 x4 ((tileRect k).emb x) := by
  have hk : k.val < 8 := Nat.lt_of_lt_of_eq k.isLt trips_eq
  have h0 : (x 0).val < 256 := (x 0).isLt
  have e0 : (((tileRect k).emb x) 0).val = 256 * k.val + (x 0).val := by
    rw [Rect.emb_apply]; show (k0_off2 k) 0 + 1 * (x 0).val = _; rw [k0_off2_eq]; show 256 * k.val + 1 * (x 0).val = _; omega
  have e1 : (((tileRect k).emb x) 1).val = (x 1).val := by
    rw [Rect.emb_apply]; show (k0_off2 k) 1 + 1 * (x 1).val = _; rw [k0_off2_eq]; show 0 + 1 * (x 1).val = _; omega
  unfold blockFn
  have ek : (⟨(((tileRect k).emb x) 0).val / 256, by rw [trips_eq]; have := idx2_lt0 ((tileRect k).emb x); omega⟩ : Fin k0_t1_loop.trips) = k :=
    Fin.ext (by show (((tileRect k).emb x) 0).val / 256 = k.val; rw [e0]; omega)
  rw [ek]
  congr 1
  funext a
  match a with
  | ⟨0, _⟩ => exact Fin.ext (by show (x 0).val = (((tileRect k).emb x) 0).val % 256; rw [e0]; omega)
  | ⟨1, _⟩ => exact Fin.ext (by show (x 1).val = (((tileRect k).emb x) 1).val; rw [e1])

/-- So the body's output block IS the block function of the blocks it read. -/
theorem out_eq_blockFn (c : Dev nD) (i : grid0.Coords) (arg1 : Memref sig .tc .vmem S2048x2 .i32) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S2048x128 .f32) (harg6 : arg6.IsWhole) (x0 : Vec F S2048x2 .i32) (x1 x2 x3 x4 : Vec F S4096x128 .bf16) :
    out0_A_5 (F := F) c i arg1 harg1 arg2 harg2 arg3 harg3 arg4 harg4 arg5 harg5 arg6 harg6 x0 x1 x2 x3 x4 = blockFn x0 x1 x2 x3 x4 := by
  funext y
  unfold out0_A_5
  rw [View.read_writes_junk_eq_canon]
  refine View.canon_apply_of_pieces (blockFn x0 x1 x2 x3 x4) _ (fun p hp x => ?_) y
    (cover0_A_5 c i arg1 harg1 arg2 harg2 arg3 harg3 arg4 harg4 arg5 harg5 arg6 harg6 x0 x1 x2 x3 x4 y)
  rw [run_pieces] at hp
  obtain ⟨k, rfl⟩ := mem_pieces Variants.none none c i arg1 harg1 arg2 harg2 arg3 harg3 arg4 harg4 arg5 harg5 arg6 harg6 x0 x1 x2 x3 x4 _ (Nat.le_refl _) p hp
  exact tile_eq_blockFn x0 x1 x2 x3 x4 k x

end Cert.KTrip

end
-- ==== Proof.KHost.lean ====
/-
  What the kernel's region finds in the arrays its windows stage, as functions of the program's arguments.

  Before the region the program lays the two rows of index pairs side by side as the two columns of a `1000000 × 2`
  array and pads it with 1472 rows of zeros to `1001472 × 2`, a whole number of 2048-row blocks; and it transposes each
  projection to a table of 4096 rows, which it splits in two halves: the table itself and the table minus itself, the
  second half zero wherever the table's entries are real numbers.
-/
import proofs.«403882_j15375982920237_3_alg».proof.Proof.Gen.KernelIdeal.Frame
import Idealize.ShloMosaic.Lib.Pipeline.Value
import Idealize.ShloMosaic.Lib.ValueIdx
import Idealize.ShloMosaic.Lib.StableHlo.Run
import Idealize.ShloMosaic.Lib.KernelVsHost

noncomputable section

namespace Cert.KHost

open Cert.KernelIdeal Cert.KernelIdeal.Gen Idealize.ShloMosaic Idealize.ShloMosaic.TcCoe
open Idealize.ShloMosaic.ValueIdx Idealize.SL.Sem Idealize.ShloMosaic.StableHlo

variable {F : FTy → Type} [FloatOps F]

/-- Row `k` of the pairs as a column of 1,000,000 entries. -/
def pairCol (k : Nat) (h : S2x1000000.Slices ![k, 0] S1x1000000) (idx : IVec S2x1000000 32) : IVec S1000000x1 32 :=
  broadcastInDim S1000000x1 ![0] Facts₀.bcast_S1000000_S1000000x1_0
    (shapeCast S1000000 (extractStridedSlice S1x1000000 ![k, 0] idx h) Facts₀.shapeCasts_S1x1000000_S1000000)

/-- The pairs as two columns, padded below with rows of zeros. -/
def paddedPairs (idx : IVec S2x1000000 32) : IVec S1001472x2 32 :=
  pad S1001472x2 ![0, 0] ![1472, 0] ![0, 0]
    (concatenate S1000000x2 1 [⟨S1000000x1, pairCol 0 Facts₀.slices_S2x1000000_S1x1000000_0_0 idx⟩,
      ⟨S1000000x1, pairCol 1 Facts₀.slices_S2x1000000_S1x1000000_1_0 idx⟩] Facts₀.concatenates_S1000000x1_S1000000x1_S1000000x2_d1)
    (constantI S_ 32 0#32) Facts₀.pads_S1000000x2_S1001472x2_014720_000 Facts₀.h_S_

/-- A projection transposed: the table whose row `v` is the projection's column `v`. -/
def tableOf (W : FVec F S128x4096 .f32) : FVec F S4096x128 .bf16 :=
  truncf .bf16 (transpose S4096x128 [1, 0] W Facts₀.transposes_S128x4096_S4096x128_1_0) Facts₀.bitsLt_bf16_f32

/-- The table's residual half: the table minus itself. -/
def residualOf (W : FVec F S128x4096 .f32) : FVec F S4096x128 .bf16 :=
  truncf .bf16
    (subf (transpose S4096x128 [1, 0] W Facts₀.transposes_S128x4096_S4096x128_1_0)
      (extf .f32 (truncf .bf16 (transpose S4096x128 [1, 0] W Facts₀.transposes_S128x4096_S4096x128_1_0) Facts₀.bitsLt_bf16_f32)
        Facts₀.bitsLt_bf16_f32))
    Facts₀.bitsLt_bf16_f32

variable (m : (ℓ : Loc nD τ sig) → Buf (Elt F) ℓ)

/-- The region finds the padded pairs in the array its first window stages, -/
theorem V_pairs (c : Dev nD) :
    (V m c main_v7 : IVec S1001472x2 32) = paddedPairs (m ((c : Thread nD τ).loc main_arg0)) := by
  dsimp only [Gen.V]
  simp only [Gen.hostOps0, Gen.hostOps0_1, Gen.hostOps0_2, List.flatten_cons, List.flatten_nil, List.append_nil,
    List.cons_append, List.nil_append]
  after_results
  rfl

/-- the first projection's table and its residual in the next two, -/
theorem V_table1 (c : Dev nD) :
    (V m c main_v10 : FVec F S4096x128 .bf16) = tableOf (m ((c : Thread nD τ).loc main_arg3)) := by
  dsimp only [Gen.V]
  simp only [Gen.hostOps0, Gen.hostOps0_1, Gen.hostOps0_2, List.flatten_cons, List.flatten_nil, List.append_nil,
    List.cons_append, List.nil_append]
  after_results
  rfl
theorem V_residual1 (c : Dev nD) :
    (V m c main_v13 : FVec F S4096x128 .bf16) = residualOf (m ((c : Thread nD τ).loc main_arg3)) := by
  dsimp only [Gen.V]
  simp only [Gen.hostOps0, Gen.hostOps0_1, Gen.hostOps0_2, List.flatten_cons, List.flatten_nil, List.append_nil,
    List.cons_append, List.nil_append]
  after_results
  rfl

/-- and the second projection's in the last two. -/
theorem V_table2 (c : Dev nD) :
    (V m c main_v14 : FVec F S4096x128 .bf16) = tableOf (m ((c : Thread nD τ).loc main_arg4)) := by
  dsimp only [Gen.V]
  simp only [Gen.hostOps0, Gen.hostOps0_1, Gen.hostOps0_2, List.flatten_cons, List.flatten_nil, List.append_nil,
    List.cons_append, List.nil_append]
  after_results
  rfl
theorem V_residual2 (c : Dev nD) :
    (V m c main_v17 : FVec F S4096x128 .bf16) = residualOf (m ((c : Thread nD τ).loc main_arg4)) := by
  dsimp only [Gen.V]
  simp only [Gen.hostOps0, Gen.hostOps0_1, Gen.hostOps0_2, List.flatten_cons, List.flatten_nil, List.append_nil,
    List.cons_append, List.nil_append]
  after_results
  rfl

/-! ## The staged arrays read at an index -/

/-- Row `k` of the pairs as a column, read at row `R`: the pair array at `(k, R)`. -/
theorem pairCol_apply (k : Fin 2) (h : S2x1000000.Slices ![k.val, 0] S1x1000000) (idx : IVec S2x1000000 32) (R : Fin 1000000) :
    pairCol k.val h idx (ix2 R (0 : Fin 1)) = idx (ix2 k R) := by
  unfold pairCol
  refine (broadcastInDim_apply _ _ _ (ix2 R (0 : Fin 1)) (ix1 R) fun a => ?_).trans ?_
  · match a with
    | ⟨0, _⟩ => rfl
  refine (shapeCast_apply _ _ (ix1 R) (ix2 (0 : Fin 1) R) ?_).trans ?_
  · rw [Shape.rowMajor_val_two, Shape.rowMajor_val_one]
    show 0 * 1000000 + R.val = R.val
    omega
  refine extractStridedSlice_apply _ _ _ (ix2 (0 : Fin 1) R) (ix2 k R) fun a => ?_
  match a with
  | ⟨0, _⟩ => show k.val = k.val + 0; omega
  | ⟨1, _⟩ => show R.val = 0 + R.val; omega

/-- The padded pairs at a row of the pair array proper: the pair array, transposed. -/
theorem paddedPairs_inside (idx : IVec S2x1000000 32) (R : Fin 1001472) (k : Fin 2) (hR : R.val < 1000000) :
    paddedPairs idx (ix2 R k) = idx (ix2 k ⟨R.val, hR⟩) := by
  unfold paddedPairs
  refine (pad_apply_of_inside _ _ _ _ _ _ _ (ix2 R k) (ix2 (⟨R.val, hR⟩ : Fin 1000000) k) fun a => ?_).trans ?_
  · match a with
    | ⟨0, _⟩ => show R.val = 0 + R.val * (0 + 1); omega
    | ⟨1, _⟩ => show k.val = 0 + k.val * (0 + 1); omega
  match k with
  | ⟨0, _⟩ =>
    refine (concatenate_pair_apply_left (t := S1000000x2) (s₁ := S1000000x1) (s₂ := S1000000x1) _ _ _ _
      (ix2 (⟨R.val, hR⟩ : Fin 1000000) (0 : Fin 2)) rfl (ix2 (⟨R.val, hR⟩ : Fin 1000000) (0 : Fin 1)) fun b => ?_).trans ?_
    · match b with
      | ⟨0, _⟩ => rfl
      | ⟨1, _⟩ => rfl
    exact pairCol_apply (0 : Fin 2) _ idx ⟨R.val, hR⟩
  | ⟨1, _⟩ =>
    refine (concatenate_pair_apply_right (t := S1000000x2) (s₁ := S1000000x1) (s₂ := S1000000x1) _ _ _ _
      (ix2 (⟨R.val, hR⟩ : Fin 1000000) (1 : Fin 2)) rfl rfl (ix2 (⟨R.val, hR⟩ : Fin 1000000) (0 : Fin 1)) (fun b hb => ?_) ?_).trans ?_
    · match b with
      | ⟨0, _⟩ => rfl
      | ⟨1, _⟩ => exact absurd rfl hb
    · rfl
    exact pairCol_apply (1 : Fin 2) _ idx ⟨R.val, hR⟩

/-- The padded pairs at a padding row: zero. -/
theorem paddedPairs_outside (idx : IVec S2x1000000 32) (R : Fin 1001472) (k : Fin 2) (hR : 1000000 ≤ R.val) :
    paddedPairs idx (ix2 R k) = 0#32 := by
  unfold paddedPairs
  refine (pad_apply_of_not_inside _ _ _ _ _ _ _ (ix2 R k) (0 : Fin 2) ?_).trans rfl
  show ¬(0 ≤ R.val ∧ (R.val - 0) % (0 + 1) = 0 ∧ (R.val - 0) / (0 + 1) < 1000000)
  omega

/-- Every word of the padded pairs names a column when every word of the pairs does. -/
theorem paddedPairs_lt (idx : IVec S2x1000000 32) (hidx : ∀ i, (idx i).toNat < 4096) (R : Fin 1001472) (k : Fin 2) :
    (paddedPairs idx (ix2 R k)).toNat < 4096 := by
  by_cases hR : R.val < 1000000
  · rw [paddedPairs_inside idx R k hR]; exact hidx _
  · rw [paddedPairs_outside idx R k (Nat.le_of_not_lt hR)]; decide

/-- The table read at row `v` and lane `j`: the projection at `(j, v)`. -/
theorem tableOf_apply (W : FVec Ideal S128x4096 .f32) (v : Fin 4096) (j : Fin 128) :
    tableOf (F := Ideal) W (ix2 v j) = W (ix2 j v) := by
  unfold tableOf
  show transpose S4096x128 [1, 0] W Facts₀.transposes_S128x4096_S4096x128_1_0 (ix2 v j) = W (ix2 j v)
  refine transpose_apply _ _ _ (ix2 v j) (ix2 j v) fun b => ?_
  match b with
  | ⟨0, _⟩ => rfl
  | ⟨1, _⟩ => rfl

/-- The residual half is zero where the projection's entries are real numbers: a real number minus itself. -/
theorem residualOf_apply (W : FVec Ideal S128x4096 .f32) (hW : ∀ i, W i ≠ ⊤ ∧ W i ≠ ⊥) (i : S4096x128.Idx) :
    residualOf (F := Ideal) W i = 0 := by
  obtain ⟨v, j, rfl⟩ : ∃ (v : Fin 4096) (j : Fin 128), i = ix2 v j := ⟨i 0, i 1, eq_ix2 i⟩
  unfold residualOf
  have e : (transpose S4096x128 [1, 0] W Facts₀.transposes_S128x4096_S4096x128_1_0) (ix2 v j) = W (ix2 j v) := by
    refine transpose_apply _ _ _ (ix2 v j) (ix2 j v) fun b => ?_
    match b with
    | ⟨0, _⟩ => rfl
    | ⟨1, _⟩ => rfl
  show (transpose S4096x128 [1, 0] W Facts₀.transposes_S128x4096_S4096x128_1_0) (ix2 v j)
      - (transpose S4096x128 [1, 0] W Facts₀.transposes_S128x4096_S4096x128_1_0) (ix2 v j) = 0
  rw [e]
  exact EReal.sub_self (hW _).1 (hW _).2

end Cert.KHost

end
-- ==== Proof.KReads.lean ====
/-
  The blocks the kernel body reads at grid point `t`, as functions of the program's arguments.

  Point `t` of the 489 stages rows `2048 t … 2048 t + 2047` of the padded pairs, and the four table halves whole (their
  windows never move). So row `p` of the staged pairs is row `2048 t + p` of the padded pairs, and each staged table is
  the table.
-/
import proofs.«403882_j15375982920237_3_alg».proof.Proof.KHost

noncomputable section

namespace Cert.KReads

open Cert.KernelIdeal Cert.KernelIdeal.Gen Idealize.ShloMosaic Idealize.ShloMosaic.TcCoe
open Idealize.ShloMosaic.ValueIdx Idealize.SL.Sem Cert.KHost

variable {F : FTy → Type} [FloatOps F]
variable (m : (ℓ : Loc nD τ sig) → Buf (Elt F) ℓ)

/-- The pairs' window steps one block of rows per grid point and never along the two columns; the tables' windows stay
    at block zero (decided over the 489 points). -/
theorem idx_windows : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- A grid point is below 489. -/
theorem pt_lt (t : Fin cfg0.N) : t.val < 489 := Nat.lt_of_lt_of_eq t.isLt N_0

/-- The staged block of pairs at point `t`, -/
abbrev pairsBlk (c : Dev nD) (t : Fin cfg0.N) : Vec F S2048x2 .i32 := iblk m c 0 t
/-- the staged first table and its residual, -/
abbrev tbl1 (c : Dev nD) (t : Fin cfg0.N) : Vec F S4096x128 .bf16 := iblk m c 1 t
abbrev res1 (c : Dev nD) (t : Fin cfg0.N) : Vec F S4096x128 .bf16 := iblk m c 2 t
/-- and the second table and its residual. -/
abbrev tbl2 (c : Dev nD) (t : Fin cfg0.N) : Vec F S4096x128 .bf16 := iblk m c 3 t
abbrev res2 (c : Dev nD) (t : Fin cfg0.N) : Vec F S4096x128 .bf16 := iblk m c 4 t

/-- Row `p` of the staged pairs is row `2048 t + p` of the padded pairs. -/
theorem pairsBlk_apply (c : Dev nD) (t : Fin cfg0.N) (p : Fin 2048) (k : Fin 2) :
    pairsBlk m c t (ix2 p k)
      = paddedPairs (m ((c : Thread nD τ).loc main_arg0)) (ix2 ⟨2048 * t.val + p.val, by have := pt_lt t; omega⟩ k) := by
  obtain ⟨e0, e1, -⟩ := idx_windows t
  rw [← V_pairs m c]
  show V m c main_v7 (((cfg0.win 0).blk t).view.emb (ix2 p k)) = V m c main_v7 _
  refine congrArg (V m c main_v7) (funext fun a => Fin.ext ?_)
  match a with
  | ⟨0, _⟩ => show win0_0.index t (0 : Fin 2) * 2048 + 1 * p.val = 2048 * t.val + p.val; omega
  | ⟨1, _⟩ => show win0_0.index t (1 : Fin 2) * 2 + 1 * k.val = k.val; omega

/-- A window that never moves and whose block is its whole array stages the array. -/
theorem tbl1_eq (c : Dev nD) (t : Fin cfg0.N) : tbl1 m c t = tableOf (m ((c : Thread nD τ).loc main_arg3)) := by
  obtain ⟨-, -, e0, e1, -⟩ := idx_windows t
  rw [← V_table1 m c]
  funext y
  show V m c main_v10 (((cfg0.win 1).blk t).view.emb y) = V m c main_v10 y
  refine congrArg (V m c main_v10) (funext fun a => Fin.ext ?_)
  match a with
  | ⟨0, _⟩ => show win0_1.index t (0 : Fin 2) * 4096 + 1 * (y 0).val = (y 0).val; omega
  | ⟨1, _⟩ => show win0_1.index t (1 : Fin 2) * 128 + 1 * (y 1).val = (y 1).val; omega

theorem res1_eq (c : Dev nD) (t : Fin cfg0.N) : res1 m c t = residualOf (m ((c : Thread nD τ).loc main_arg3)) := by
  obtain ⟨-, -, -, -, e0, e1, -⟩ := idx_windows t
  rw [← V_residual1 m c]
  funext y
  show V m c main_v13 (((cfg0.win 2).blk t).view.emb y) = V m c main_v13 y
  refine congrArg (V m c main_v13) (funext fun a => Fin.ext ?_)
  match a with
  | ⟨0, _⟩ => show win0_2.index t (0 : Fin 2) * 4096 + 1 * (y 0).val = (y 0).val; omega
  | ⟨1, _⟩ => show win0_2.index t (1 : Fin 2) * 128 + 1 * (y 1).val = (y 1).val; omega

theorem tbl2_eq (c : Dev nD) (t : Fin cfg0.N) : tbl2 m c t = tableOf (m ((c : Thread nD τ).loc main_arg4)) := by
  obtain ⟨-, -, -, -, -, -, e0, e1, -⟩ := idx_windows t
  rw [← V_table2 m c]
  funext y
  show V m c main_v14 (((cfg0.win 3).blk t).view.emb y) = V m c main_v14 y
  refine congrArg (V m c main_v14) (funext fun a => Fin.ext ?_)
  match a with
  | ⟨0, _⟩ => show win0_3.index t (0 : Fin 2) * 4096 + 1 * (y 0).val = (y 0).val; omega
  | ⟨1, _⟩ => show win0_3.index t (1 : Fin 2) * 128 + 1 * (y 1).val = (y 1).val; omega

theorem res2_eq (c : Dev nD) (t : Fin cfg0.N) : res2 m c t = residualOf (m ((c : Thread nD τ).loc main_arg4)) := by
  obtain ⟨-, -, -, -, -, -, -, -, e0, e1⟩ := idx_windows t
  rw [← V_residual2 m c]
  funext y
  show V m c main_v17 (((cfg0.win 4).blk t).view.emb y) = V m c main_v17 y
  refine congrArg (V m c main_v17) (funext fun a => Fin.ext ?_)
  match a with
  | ⟨0, _⟩ => show win0_4.index t (0 : Fin 2) * 4096 + 1 * (y 0).val = (y 0).val; omega
  | ⟨1, _⟩ => show win0_4.index t (1 : Fin 2) * 128 + 1 * (y 1).val = (y 1).val; omega

end Cert.KReads

end
-- ==== Proof.KPayload.lean ====
/-
  The kernel body's arithmetic, read at one entry.

  A chunk holds 256 index pairs. For pair p the body builds two rows of 4096 entries, each 1 at the position its index
  word names and 0 elsewhere, and multiplies each against a table of 4096 rows by 128 columns (and against a second
  table that is identically zero in exact arithmetic). A sum over 4096 positions against such a row has one nonzero
  term, so each product is the named row of the table. The two picked rows are multiplied entry by entry; the row of
  128 products is divided by the larger of its Euclidean norm and a fixed positive threshold.
-/
import Idealize.ShloMosaic.Lib.ValueIdx
import Idealize.ShloMosaic.Lib.Pipeline.Value
import Idealize.ShloMosaic.Lib.ValueLayout
import Idealize.ShloMosaic.Lib.StableHlo.Predicate
import Idealize.ShloMosaic.PureOps.Ideal.Laws
import proofs.«403882_j15375982920237_3_alg».proof.Proof.Spec
import proofs.«403882_j15375982920237_3_alg».proof.Proof.Gen.KernelIdeal.Skeleton

noncomputable section

open scoped BigOperators

namespace Cert.KPayload

open Cert.KernelIdeal Cert.KernelIdeal.Gen Idealize.ShloMosaic Idealize.ShloMosaic.ValueIdx

/-! ## The contraction of a 256 × 4096 block with a 4096 × 128 table, as a sum over the 4096 positions -/

theorem lhs_0 (i : S256x128.Idx) (q : dot_S256x4096_S4096x128_S256x128_1_0_0_1_n_n.contr.Idx) :
    (dot_S256x4096_S4096x128_S256x128_1_0_0_1_n_n.lhsIdx i q 0).val = (i 0).val := by
  unfold DotDims.lhsIdx
  rw [dif_neg (show ¬(0 : Fin S256x4096.rank) ∈ dot_S256x4096_S4096x128_S256x128_1_0_0_1_n_n.lhsBatch by decide),
    dif_pos (show (0 : Fin S256x4096.rank) ∈ dot_S256x4096_S4096x128_S256x128_1_0_0_1_n_n.lhsNonContracting by decide)]
  rfl

theorem lhs_1 (i : S256x128.Idx) (q : dot_S256x4096_S4096x128_S256x128_1_0_0_1_n_n.contr.Idx) :
    (dot_S256x4096_S4096x128_S256x128_1_0_0_1_n_n.lhsIdx i q 1).val = (q ⟨0, by decide⟩).val :=
  dot_S256x4096_S4096x128_S256x128_1_0_0_1_n_n.lhsIdx_val_of_single rfl i q

theorem rhs_0 (i : S256x128.Idx) (q : dot_S256x4096_S4096x128_S256x128_1_0_0_1_n_n.contr.Idx) :
    (dot_S256x4096_S4096x128_S256x128_1_0_0_1_n_n.rhsIdx i q 0).val = (q ⟨0, by decide⟩).val :=
  dot_S256x4096_S4096x128_S256x128_1_0_0_1_n_n.rhsIdx_val_of_single rfl i q

theorem rhs_1 (i : S256x128.Idx) (q : dot_S256x4096_S4096x128_S256x128_1_0_0_1_n_n.contr.Idx) :
    (dot_S256x4096_S4096x128_S256x128_1_0_0_1_n_n.rhsIdx i q 1).val = (i 1).val := by
  unfold DotDims.rhsIdx
  rw [dif_neg (show ¬(1 : Fin S4096x128.rank) ∈ dot_S256x4096_S4096x128_S256x128_1_0_0_1_n_n.rhsBatch by decide),
    dif_pos (show (1 : Fin S4096x128.rank) ∈ dot_S256x4096_S4096x128_S256x128_1_0_0_1_n_n.rhsNonContracting by decide)]
  rfl

/-- Entry (p, j) of the product into a zero accumulator: the sum over the 4096 positions. -/
theorem matmul_at (x : FVec Ideal S256x4096 .bf16) (t : FVec Ideal S4096x128 .bf16) (p : Fin 256) (j : Fin 128) :
    matmul dot_S256x4096_S4096x128_S256x128_1_0_0_1_n_n none x t (constant (F := Ideal) S256x128 .f32 0x00000000#32) (ix2 p j)
      = ∑ k : Fin 4096, x (ix2 p k) * t (ix2 k j) := by
  simp only [matmul]
  rw [Ideal.matmul_constant_zero_apply,
    ← Equiv.sum_comp (contrEquiv1 dot_S256x4096_S4096x128_S256x128_1_0_0_1_n_n 4096 rfl rfl).symm]
  refine Finset.sum_congr rfl fun k _ => ?_
  have hk := contrEquiv1_symm_val dot_S256x4096_S4096x128_S256x128_1_0_0_1_n_n 4096 rfl rfl k
  have el : dot_S256x4096_S4096x128_S256x128_1_0_0_1_n_n.lhsIdx (ix2 p j)
      ((contrEquiv1 dot_S256x4096_S4096x128_S256x128_1_0_0_1_n_n 4096 rfl rfl).symm k) = ix2 p k :=
    funext fun a => Fin.ext (by
      match a with
      | ⟨0, _⟩ => exact lhs_0 _ _
      | ⟨1, _⟩ => exact (lhs_1 _ _).trans hk)
  have er : dot_S256x4096_S4096x128_S256x128_1_0_0_1_n_n.rhsIdx (ix2 p j)
      ((contrEquiv1 dot_S256x4096_S4096x128_S256x128_1_0_0_1_n_n 4096 rfl rfl).symm k) = ix2 k j :=
    funext fun a => Fin.ext (by
      match a with
      | ⟨0, _⟩ => exact (rhs_0 _ _).trans hk
      | ⟨1, _⟩ => exact rhs_1 _ _)
  rw [el, er]

/-! ## A sum against a row that is 1 at one position and 0 elsewhere -/

/-- The product of such a block row with a table is the table's row at that position. -/
theorem pick_row (x : FVec Ideal S256x4096 .bf16) (t : FVec Ideal S4096x128 .bf16) (p : Fin 256) (j : Fin 128) (c : Fin 4096)
    (hx : ∀ k : Fin 4096, x (ix2 p k) = if k = c then 1 else 0) :
    matmul dot_S256x4096_S4096x128_S256x128_1_0_0_1_n_n none x t (constant (F := Ideal) S256x128 .f32 0x00000000#32) (ix2 p j)
      = t (ix2 c j) := by
  rw [matmul_at, Finset.sum_eq_single c]
  · rw [hx c, if_pos rfl, one_mul]
  · intro k _ hk
    rw [hx k, if_neg hk, zero_mul]
  · intro h
    exact absurd (Finset.mem_univ c) h

/-! ## The layout operations of the body, read at an entry -/

section Layout
variable {α : Type}

/-- Column 0 of the chunk of pairs, as a 256 × 1 block. -/
theorem col0_at (v : S256x2.Idx → α) (hc : S256x2.ShapeCasts S256x2) (hs : S256x2.Slices ![0, 0] S256x1) (p : Fin 256) :
    extractStridedSlice S256x1 ![0, 0] (shapeCast S256x2 v hc) hs (ix2 p (0 : Fin 1)) = v (ix2 p (0 : Fin 2)) := by
  rw [shapeCast_self]
  exact slice2_axis1_apply 0 v hs p (0 : Fin 1) (0 : Fin 2) rfl

/-- Column 1 of the chunk of pairs, as a 256 × 1 block. -/
theorem col1_at (v : S256x2.Idx → α) (hc : S256x2.ShapeCasts S256x2) (hs : S256x2.Slices ![0, 1] S256x1) (p : Fin 256) :
    extractStridedSlice S256x1 ![0, 1] (shapeCast S256x2 v hc) hs (ix2 p (0 : Fin 1)) = v (ix2 p (1 : Fin 2)) := by
  rw [shapeCast_self]
  exact slice2_axis1_apply 1 v hs p (0 : Fin 1) (1 : Fin 2) rfl

/-- A column of `a` entries spread over `b` columns reads, at (p, c), the column's entry p. -/
theorem spread_col_at {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of `a` entries viewed as a column reads, at (p, 0), the vector's entry p. -/
theorem as_col_at {a : ℕ} (x : (⟨1, ![a]⟩ : Shape).Idx → α) (h : (⟨1, ![a]⟩ : Shape).ShapeCasts ⟨2, ![a, 1]⟩)
    (p : Fin a) : shapeCast ⟨2, ![a, 1]⟩ x h (ix2 p (0 : Fin 1)) = x (ix1 p) :=
  shapeCast_apply x h _ _ (by
    rw [Shape.rowMajor_val_two, Shape.rowMajor_val_one]
    show p.val = p.val * 1 + 0
    omega)

end Layout

/-- The position counter along the 4096 columns reads, at (p, k), the word of k. -/
theorem counter_at (h : S256x4096.Iotas .tc 32 [1]) (p : Fin 256) (k : Fin 4096) :
    iota .tc S256x4096 32 [1] h (ix2 p k) = BitVec.ofNat 32 k.val :=
  iota_single_apply .tc S256x4096 32 1 h (ix2 p k)

/-! ## The row that marks one position -/

/-- The test "the index word is position k", widened to a number, is 1 at the position the word names and 0
    elsewhere, for a word below 4096. -/
theorem mark_entry (w : BitVec 32) (k : Fin 4096) (hw : w.toNat < 4096) :
    ((((IntOp.cmpi .eq w (BitVec.ofNat 32 k.val)).setWidth 32).toInt : ℝ) : EReal)
      = if k = Cert.Spec.colOf w then 1 else 0 := by
  have hk := k.isLt
  by_cases h : w = BitVec.ofNat 32 k.val
  · have hc : k = Cert.Spec.colOf w := by
      apply Fin.ext
      rw [Cert.Spec.colOf_val hw, h, BitVec.toNat_ofNat]
      omega
    rw [StableHlo.Predicate.cmpi_eq_iff.2 h, if_pos hc]
    have e : ((1#1 : BitVec 1).setWidth 32).toInt = 1 := by decide
    rw [e]
    norm_num
  · have hc : ¬ k = Cert.Spec.colOf w := by
      intro hkc
      apply h
      apply BitVec.eq_of_toNat_eq
      have e := congrArg Fin.val hkc
      rw [Cert.Spec.colOf_val hw] at e
      rw [BitVec.toNat_ofNat, ← e]
      omega
    rw [eq_zero_of_ne_one (fun hh => h (StableHlo.Predicate.cmpi_eq_iff.1 hh)), if_neg hc]
    have e : ((0#1 : BitVec 1).setWidth 32).toInt = 0 := by decide
    rw [e]
    norm_num

/-- The 256 × 4096 block whose row p marks the position that entry p of a column of index words names. -/
def markBlock (col : IVec S256x1 32) : FVec Ideal S256x4096 .bf16 :=
  truncf .bf16
    (sitofp .f32
      (extui 32 (cmpi .eq (broadcastTo S256x4096 col broadcasts_S256x1_S256x4096) (iota .tc S256x4096 32 [1] iota_S256x4096_d1_w32))
        natLt_1_32))
    bitsLt_bf16_f32

theorem markBlock_at (col : IVec S256x1 32) (p : Fin 256) (k : Fin 4096) (hw : (col (ix2 p (0 : Fin 1))).toNat < 4096) :
    markBlock col (ix2 p k) = if k = Cert.Spec.colOf (col (ix2 p (0 : Fin 1))) then 1 else 0 := by
  refine Eq.trans ?_ (mark_entry (col (ix2 p (0 : Fin 1))) k hw)
  show ((((IntOp.cmpi .eq (broadcastTo S256x4096 col broadcasts_S256x1_S256x4096 (ix2 p k))
      (iota .tc S256x4096 32 [1] iota_S256x4096_d1_w32 (ix2 p k))).setWidth 32).toInt : ℝ) : EReal) = _
  rw [spread_col_at col broadcasts_S256x1_S256x4096 p k, counter_at iota_S256x4096_d1_w32 p k]

/-! ## The product block and the norm column, at an entry -/

/-- Entry (p, j) of a marked block times a table plus the same block times a table that is zero: the table's row
    that entry p of the column of words names. -/
theorem gathered_at (col : IVec S256x1 32) (t r : FVec Ideal S4096x128 .bf16) (p : Fin 256) (j : Fin 128)
    (hw : (col (ix2 p (0 : Fin 1))).toNat < 4096) (hr : ∀ i, r i = 0) :
    addf
        (matmul dot_S256x4096_S4096x128_S256x128_1_0_0_1_n_n none (markBlock col)
          (shapeCast S4096x128 t shapeCasts_S4096x128_S4096x128) (constant (F := Ideal) S256x128 .f32 0x00000000#32))
        (matmul dot_S256x4096_S4096x128_S256x128_1_0_0_1_n_n none (markBlock col)
          (shapeCast S4096x128 r shapeCasts_S4096x128_S4096x128) (constant (F := Ideal) S256x128 .f32 0x00000000#32))
        (ix2 p j)
      = t (ix2 (Cert.Spec.colOf (col (ix2 p (0 : Fin 1)))) j) := by
  rw [shapeCast_self, shapeCast_self]
  refine (addf_apply _ _ _).trans ?_
  rw [pick_row (markBlock col) t p j _ (fun k => markBlock_at col p k hw),
    pick_row (markBlock col) r p j _ (fun k => markBlock_at col p k hw), hr, add_zero]

/-- The sum of squares along a row of a 256 × 128 block, viewed as a column, at (p, 0). -/
theorem sumsq_col_at (P : FVec Ideal S256x128 .f32) (hred : S256x128.Reduces [1] S256) (hφ : FKind.Formats .f32)
    (hacc : (0x00000000#32 : BitVec 32) = FKind.add.neutral .f32 hφ) (hc : S256.ShapeCasts S256x1) (p : Fin 256) :
    shapeCast S256x1 (multiReduction (F := Ideal) .add [1] S256 (mulf P P) 0x00000000#32 hred hφ hacc) hc (ix2 p (0 : Fin 1))
      = ∑ j' : Fin 128, P (ix2 p j') * P (ix2 p j') := by
  refine (as_col_at _ hc p).trans ?_
  refine (Ideal.multiReduction_add_single (mulf P P) 0x00000000#32 hred hφ hacc (ix1 p)).trans ?_
  refine Finset.sum_congr rfl fun k _ => ?_
  have e : hred.lift (ix1 p) k = ix2 p k :=
    funext fun a => Fin.ext (by
      match a with
      | ⟨0, _⟩ => rfl
      | ⟨1, _⟩ => rfl)
  rw [e]
  rfl

/-! ## The body's three named terms -/

/-- Entry j of row p's product: the picked row of the first table times the picked row of the second. -/
def rowProd (v6 : Vec Ideal S256x2 .i32) (t1 t2 : Vec Ideal S4096x128 .bf16) (p : Fin 256) (j : Fin 128) : EReal :=
  t1 (ix2 (Cert.Spec.colOf (v6 (ix2 p (0 : Fin 2)))) j) * t2 (ix2 (Cert.Spec.colOf (v6 (ix2 p (1 : Fin 2)))) j)

/-- Column 0 of the chunk of pairs, the words that index the first table, as a 256 × 1 block. -/
abbrev wordCol0 (v6 : IVec S256x2 32) : IVec S256x1 32 :=
  extractStridedSlice S256x1 ![0, 0] (shapeCast S256x2 v6 shapeCasts_S256x2_S256x2) slices_S256x2_o0_0_S256x1
/-- Column 1 of the chunk of pairs, the words that index the second table, as a 256 × 1 block. -/
abbrev wordCol1 (v6 : IVec S256x2 32) : IVec S256x1 32 :=
  extractStridedSlice S256x1 ![0, 1] (shapeCast S256x2 v6 shapeCasts_S256x2_S256x2) slices_S256x2_o0_1_S256x1

/-- The product block is the product of the two gathered blocks. -/
theorem pay2_eq (v6 : IVec S256x2 32) (t1 r1 t2 r2 : FVec Ideal S4096x128 .bf16) :
    k0_pay2 (F := Ideal) v6 t1 r1 t2 r2
      = mulf
          (addf
            (matmul dot_S256x4096_S4096x128_S256x128_1_0_0_1_n_n none (markBlock (wordCol0 v6))
              (shapeCast S4096x128 t1 shapeCasts_S4096x128_S4096x128) (constant (F := Ideal) S256x128 .f32 0x00000000#32))
            (matmul dot_S256x4096_S4096x128_S256x128_1_0_0_1_n_n none (markBlock (wordCol0 v6))
              (shapeCast S4096x128 r1 shapeCasts_S4096x128_S4096x128) (constant (F := Ideal) S256x128 .f32 0x00000000#32)))
          (addf
            (matmul dot_S256x4096_S4096x128_S256x128_1_0_0_1_n_n none (markBlock (wordCol1 v6))
              (shapeCast S4096x128 t2 shapeCasts_S4096x128_S4096x128) (constant (F := Ideal) S256x128 .f32 0x00000000#32))
            (matmul dot_S256x4096_S4096x128_S256x128_1_0_0_1_n_n none (markBlock (wordCol1 v6))
              (shapeCast S4096x128 r2 shapeCasts_S4096x128_S4096x128) (constant (F := Ideal) S256x128 .f32 0x00000000#32))) :=
  rfl

/-- Entry (p, j) of the product block. -/
theorem pay2_at (v6 : IVec S256x2 32) (t1 r1 t2 r2 : FVec Ideal S4096x128 .bf16) (p : Fin 256) (j : Fin 128)
    (h0 : (v6 (ix2 p (0 : Fin 2))).toNat < 4096) (h1 : (v6 (ix2 p (1 : Fin 2))).toNat < 4096)
    (hr1 : ∀ i, r1 i = 0) (hr2 : ∀ i, r2 i = 0) :
    k0_pay2 (F := Ideal) v6 t1 r1 t2 r2 (ix2 p j) = rowProd v6 t1 t2 p j := by
  have e0 : wordCol0 v6 (ix2 p (0 : Fin 1)) = v6 (ix2 p (0 : Fin 2)) := col0_at v6 _ _ p
  have e1 : wordCol1 v6 (ix2 p (0 : Fin 1)) = v6 (ix2 p (1 : Fin 2)) := col1_at v6 _ _ p
  rw [pay2_eq]
  refine (mulf_apply _ _ _).trans ?_
  rw [gathered_at (wordCol0 v6) t1 r1 p j (by rw [e0]; exact h0) hr1,
    gathered_at (wordCol1 v6) t2 r2 p j (by rw [e1]; exact h1) hr2, e0, e1]
  rfl

/-- Entry (p, 0) of the norm column: the larger of the row's Euclidean norm and the threshold. -/
theorem pay3_at (v6 : IVec S256x2 32) (t1 r1 t2 r2 : FVec Ideal S4096x128 .bf16) (p : Fin 256)
    (h0 : (v6 (ix2 p (0 : Fin 2))).toNat < 4096) (h1 : (v6 (ix2 p (1 : Fin 2))).toNat < 4096)
    (hr1 : ∀ i, r1 i = 0) (hr2 : ∀ i, r2 i = 0) :
    k0_pay3 (F := Ideal) v6 t1 r1 t2 r2 (ix2 p (0 : Fin 1))
      = max (Ideal.sqrt (∑ j' : Fin 128, rowProd v6 t1 t2 p j' * rowProd v6 t1 t2 p j')) Cert.Spec.eps := by
  unfold k0_pay3
  refine (maximumf_apply _ _ _).trans ?_
  refine congrArg (fun x => max (Ideal.sqrt x) Cert.Spec.eps) ?_
  refine (sumsq_col_at (k0_pay2 (F := Ideal) v6 t1 r1 t2 r2) _ _ _ _ p).trans ?_
  refine Finset.sum_congr rfl fun j' _ => ?_
  rw [pay2_at v6 t1 r1 t2 r2 p j' h0 h1 hr1 hr2]

theorem payload_apply (v6 : Vec Ideal S256x2 .i32) (t1 r1 t2 r2 : Vec Ideal S4096x128 .bf16) (p : Fin 256) (j : Fin 128)
    (h0 : (v6 (ix2 p (0 : Fin 2))).toNat < 4096) (h1 : (v6 (ix2 p (1 : Fin 2))).toNat < 4096)
    (hr1 : ∀ i, r1 i = 0) (hr2 : ∀ i, r2 i = 0) :
    k0_pay1 (F := Ideal) (k0_pay2 v6 t1 r1 t2 r2) (k0_pay3 v6 t1 r1 t2 r2) (ix2 p j)
      = Ideal.div (rowProd v6 t1 t2 p j)
          (max (Ideal.sqrt (∑ j' : Fin 128, rowProd v6 t1 t2 p j' * rowProd v6 t1 t2 p j')) Cert.Spec.eps) := by
  unfold k0_pay1
  refine (divf_apply _ _ _).trans ?_
  rw [spread_col_at _ broadcasts_S256x1_S256x128 p j, pay2_at v6 t1 r1 t2 r2 p j h0 h1 hr1 hr2,
    pay3_at v6 t1 r1 t2 r2 p h0 h1 hr1 hr2]

end Cert.KPayload

end
-- ==== Proof.KBlock.lean ====
/-
  The kernel's output block at grid point `t`, read at a row that lies inside the result array, is the specification's
  row.

  Row `y₀` of the block is row `R = 2048 t + y₀` of the result. The body computes it in trip `y₀ / 256` from row
  `y₀ % 256` of that trip's chunk of pairs, which is row `R` of the padded pairs: for `R` below 1,000,000 the two index
  words of pair `R`. The one-hot products against the tables pick the tables' rows those words name — the projections'
  columns — and the residual halves contribute nothing, being zero for projections of real numbers. What is left is
  the specification's arithmetic on the interaction of pair `R`.
-/
import proofs.«403882_j15375982920237_3_alg».proof.Proof.Spec
import proofs.«403882_j15375982920237_3_alg».proof.Proof.KTrip
import proofs.«403882_j15375982920237_3_alg».proof.Proof.KReads
import proofs.«403882_j15375982920237_3_alg».proof.Proof.KPayload

noncomputable section

open scoped BigOperators

namespace Cert.KBlock

open Cert.KernelIdeal Cert.KernelIdeal.Gen Idealize.ShloMosaic Idealize.ShloMosaic.TcCoe
open Idealize.ShloMosaic.ValueIdx Idealize.SL.Sem Cert.KHost Cert.KReads Cert.KTrip

/-- Row `p` of chunk `k` of a block of pairs is the block's row `256 k + p`. -/
theorem chunk_apply {F : FTy → Type} [FloatOps F] (x0 : Vec F S2048x2 .i32) (k : Fin k0_t1_loop.trips) (p : Fin 256) (k' : Fin 2) :
    chunk x0 k (ix2 p k')
      = x0 (ix2 ⟨256 * k.val + p.val, by have := Nat.lt_of_lt_of_eq k.isLt trips_eq; omega⟩ k') := by
  unfold chunk
  show x0 ((Rect.unit (s := S2048x2) (k0_off1 k) S256x2.size (k0_off1_inb k)).emb (ix2 p k')) = _
  refine congrArg x0 (funext fun a => Fin.ext ?_)
  match a with
  | ⟨0, _⟩ =>
    rw [Rect.emb_apply]; show (k0_off1 k) 0 + 1 * p.val = 256 * k.val + p.val
    rw [k0_off1_eq]; show 256 * k.val + 1 * p.val = _; omega
  | ⟨1, _⟩ =>
    rw [Rect.emb_apply]; show (k0_off1 k) 1 + 1 * k'.val = k'.val
    rw [k0_off1_eq]; show 0 + 1 * k'.val = _; omega

variable (m : (ℓ : Loc nD τ sig) → Buf (Elt Ideal) ℓ)

/-- The program's three live arguments on core `c`: the pairs and the two projections. -/
abbrev pairsOf (c : Dev nD) : Cert.Spec.Pairs := m ((c : Thread nD τ).loc main_arg0)
abbrev proj1Of (c : Dev nD) : Cert.Spec.Proj := m ((c : Thread nD τ).loc main_arg3)
abbrev proj2Of (c : Dev nD) : Cert.Spec.Proj := m ((c : Thread nD τ).loc main_arg4)

/-- Word `k'` of row `p` of chunk `k` at point `t`: the padded pairs at row `2048 t + 256 k + p`. -/
theorem chunk_word (c : Dev nD) (t : Fin cfg0.N) (k : Fin k0_t1_loop.trips) (p : Fin 256) (k' : Fin 2) :
    chunk (pairsBlk m c t) k (ix2 p k')
      = paddedPairs (pairsOf m c) (ix2 ⟨2048 * t.val + (256 * k.val + p.val), by
          have := pt_lt t; have := Nat.lt_of_lt_of_eq k.isLt trips_eq; omega⟩ k') := by
  rw [chunk_apply, pairsBlk_apply]

/-- THE BLOCK AT A ROW INSIDE THE ARRAY. -/
theorem blockFn_apply (c : Dev nD) (t : Fin cfg0.N) (hidx : Cert.Spec.InRange (pairsOf m c))
    (h1 : Cert.Spec.Finite (proj1Of m c)) (h2 : Cert.Spec.Finite (proj2Of m c)) (y : S2048x128.Idx)
    (hR : 2048 * t.val + (y 0).val < 1000000) :
    blockFn (pairsBlk m c t) (tbl1 m c t) (res1 m c t) (tbl2 m c t) (res2 m c t) y
      = Cert.Spec.unitAt (pairsOf m c) (proj1Of m c) (proj2Of m c) ⟨2048 * t.val + (y 0).val, hR⟩ ⟨(y 1).val, idx2_lt1 y⟩ := by
  have hy0 : (y 0).val < 2048 := idx2_lt0 y
  unfold blockFn tile
  rw [tbl1_eq, res1_eq, tbl2_eq, res2_eq]
  -- the row of the padded pairs this row of the chunk is
  have hrow : 256 * ((y 0).val / 256) + (y 0).val % 256 = (y 0).val := Nat.div_add_mod _ _
  have hword : ∀ k' : Fin 2,
      chunk (pairsBlk m c t) ⟨(y 0).val / 256, by rw [trips_eq]; omega⟩ (ix2 ⟨(y 0).val % 256, Nat.mod_lt _ (by norm_num)⟩ k')
        = pairsOf m c (ix2 k' ⟨2048 * t.val + (y 0).val, hR⟩) := fun k' => by
    rw [chunk_word]
    have e : (⟨2048 * t.val + (256 * ((y 0).val / 256) + (y 0).val % 256), by have := pt_lt t; omega⟩ : Fin 1001472)
        = ⟨2048 * t.val + (y 0).val, by omega⟩ :=
      Fin.ext (by show 2048 * t.val + (256 * ((y 0).val / 256) + (y 0).val % 256) = 2048 * t.val + (y 0).val; omega)
    rw [e]
    exact paddedPairs_inside _ _ _ hR
  refine (Cert.KPayload.payload_apply _ _ _ _ _ _ _ ?_ ?_ (residualOf_apply _ h1) (residualOf_apply _ h2)).trans ?_
  · rw [hword]; exact hidx _
  · rw [hword]; exact hidx _
  -- the picked rows are the specification's picked columns
  have hprod : ∀ j' : Fin 128,
      Cert.KPayload.rowProd (chunk (pairsBlk m c t) ⟨(y 0).val / 256, by rw [trips_eq]; omega⟩)
          (tableOf (F := Ideal) (proj1Of m c)) (tableOf (F := Ideal) (proj2Of m c)) ⟨(y 0).val % 256, Nat.mod_lt _ (by norm_num)⟩ j'
        = Cert.Spec.interaction (pairsOf m c) (proj1Of m c) (proj2Of m c) ⟨2048 * t.val + (y 0).val, hR⟩ j' := fun j' => by
    unfold Cert.KPayload.rowProd Cert.Spec.interaction Cert.Spec.pick
    rw [hword, hword, tableOf_apply, tableOf_apply]
  unfold Cert.Spec.unitAt Cert.Spec.sqNorm
  rw [hprod]
  simp only [hprod]

end Cert.KBlock

end
-- ==== Proof.KValue.lean ====
/-
  The kernel's result array after the run is the specification's function of the program's arguments.

  Grid point `t` writes its output block back to rows `2048 t …` of the result, cut at the array's end: the last point's
  block overhangs the 1,000,000 rows by 1472, and only its first 576 rows are written. Every row written lies inside
  the array, where the block is the specification's row; and the 489 cut blocks cover the array, row `R` lying in block
  `R / 2048`. So the array ends holding the specification's function everywhere.
-/
import proofs.«403882_j15375982920237_3_alg».proof.Proof.KBlock
import proofs.«403882_j15375982920237_3_alg».proof.Proof.Gen.KernelIdeal.Value

noncomputable section

namespace Cert.KValue

open Cert.KernelIdeal Cert.KernelIdeal.Gen Idealize.ShloMosaic Idealize.ShloMosaic.TcCoe
open Idealize.ShloMosaic.ValueIdx Idealize.SL.Sem Cert.KReads Cert.KBlock

variable (m : (ℓ : Loc nD τ sig) → Buf (Elt Ideal) ℓ) (ρ : Dev nD → PrngReg)

/-- The specification's result on core `c`'s arguments. -/
abbrev specOf (c : Dev nD) : Cert.Spec.Out :=
  Cert.Spec.unitInteraction (pairsOf m c) (proj1Of m c) (proj2Of m c)

/-- The output window steps one block of rows per grid point and never along the lanes; what point `t` moves is its
    block's rows inside the array, all lanes; and every point writes back (decided over the 489 points). -/
theorem out_window : ∀ t : Fin cfg0.N, win0_5.index t (0 : Fin 2) = t.val ∧ win0_5.index t (1 : Fin 2) = 0
    ∧ win0_5.xsize (grid0.coords t) (0 : Fin 2) = min 2048 (1000000 - 2048 * t.val)
    ∧ win0_5.xsize (grid0.coords t) (1 : Fin 2) = 128
    ∧ (cfg0.win 5).flush t = true :=
  (by decide +kernel : ∀ t : Fin grid0.N, _)

/-- WHAT POINT `t` WRITES BACK is its cut block of the specification's result. -/
theorem flushed_eq (c : Dev nD) (t : Fin cfg0.N) (hidx : Cert.Spec.InRange (pairsOf m c))
    (h1 : Cert.Spec.Finite (proj1Of m c)) (h2 : Cert.Spec.Finite (proj2Of m c)) :
    (dats m 0 c).flushed 5 t = ((cfg0.win 5).blk t).view.read (Elt Ideal) (specOf m c) := by
  rw [Cert.KernelIdeal.Value.flushed5_A, Cert.KTrip.out_eq_blockFn]
  obtain ⟨i0, i1, -, -, -⟩ := out_window t
  funext j
  show Cert.KTrip.blockFn (pairsBlk m c t) (tbl1 m c t) (res1 m c t) (tbl2 m c t) (res2 m c t)
      ((cfg0.win 5).xinj (grid0.coords t) j) = specOf m c (((cfg0.win 5).blk t).view.emb j)
  have e0 : ((((cfg0.win 5).blk t).view.emb j) 0).val = win0_5.index t (0 : Fin 2) * 2048 + 1 * (j 0).val := rfl
  have e1 : ((((cfg0.win 5).blk t).view.emb j) 1).val = win0_5.index t (1 : Fin 2) * 128 + 1 * (j 1).val := rfl
  have x0 : (((cfg0.win 5).xinj (grid0.coords t) j) 0).val = (j 0).val := rfl
  have x1 : (((cfg0.win 5).xinj (grid0.coords t) j) 1).val = (j 1).val := rfl
  have hlt : ((((cfg0.win 5).blk t).view.emb j) 0).val < 1000000 := idx2_lt0 (((cfg0.win 5).blk t).view.emb j)
  have hR : 2048 * t.val + (((cfg0.win 5).xinj (grid0.coords t) j) 0).val < 1000000 := by rw [x0]; omega
  rw [blockFn_apply m c t hidx h1 h2 _ hR]
  unfold specOf Cert.Spec.unitInteraction
  congr 1
  · exact Fin.ext (by show 2048 * t.val + (((cfg0.win 5).xinj (grid0.coords t) j) 0).val = ((((cfg0.win 5).blk t).view.emb j) 0).val; omega)
  · exact Fin.ext (by show (((cfg0.win 5).xinj (grid0.coords t) j) 1).val = ((((cfg0.win 5).blk t).view.emb j) 1).val; omega)

/-- An index of the result is in point `t`'s cut block iff each coordinate is in the block's range on its axis. -/
theorem mem_blk (t : Fin cfg0.N) (i : S1000000x128.Idx) :
    i ∈ ((cfg0.win 5).blk t).view.set ↔ ∀ a : Fin 2, win0_5.index t a * S2048x128.size a ≤ (i a).val
      ∧ (i a).val < win0_5.index t a * S2048x128.size a + win0_5.xsize (grid0.coords t) a := by
  show i ∈ ((View.whole main_v18).slice (win0_5.rect t)).set ↔ _
  rw [View.set_slice_whole, Rect.mem_set_unit]
  exact Iff.rfl

/-- Every index of the result is in some point's cut block: row `R` in block `R / 2048`. -/
theorem cover (i : S1000000x128.Idx) :
    ∃ t : Fin cfg0.N, (cfg0.win 5).flush t = true ∧ i ∈ ((cfg0.win 5).blk t).view.set := by
  have hi0 : (i 0).val < 1000000 := idx2_lt0 i
  have hi1 : (i 1).val < 128 := idx2_lt1 i
  have hN : (i 0).val / 2048 < cfg0.N := by show (i 0).val / 2048 < grid0.N; rw [N_0]; omega
  obtain ⟨i0, i1, s0, s1, hf⟩ := out_window ⟨(i 0).val / 2048, hN⟩
  refine ⟨⟨(i 0).val / 2048, hN⟩, hf, ?_⟩
  rw [mem_blk]
  intro a
  match a with
  | ⟨0, _⟩ =>
    show win0_5.index ⟨(i 0).val / 2048, hN⟩ (0 : Fin 2) * 2048 ≤ (i 0).val
      ∧ (i 0).val < win0_5.index ⟨(i 0).val / 2048, hN⟩ (0 : Fin 2) * 2048 + win0_5.xsize (grid0.coords ⟨(i 0).val / 2048, hN⟩) (0 : Fin 2)
    rw [i0, s0]
    show (i 0).val / 2048 * 2048 ≤ (i 0).val ∧ (i 0).val < (i 0).val / 2048 * 2048 + min 2048 (1000000 - 2048 * ((i 0).val / 2048))
    omega
  | ⟨1, _⟩ =>
    show win0_5.index ⟨(i 0).val / 2048, hN⟩ (1 : Fin 2) * 128 ≤ (i 1).val
      ∧ (i 1).val < win0_5.index ⟨(i 0).val / 2048, hN⟩ (1 : Fin 2) * 128 + win0_5.xsize (grid0.coords ⟨(i 0).val / 2048, hN⟩) (1 : Fin 2)
    rw [i1, s1]
    omega

/-- THE RESULT ARRAY after the run. -/
theorem final (c : Dev nD) (hidx : Cert.Spec.InRange (pairsOf m c))
    (h1 : Cert.Spec.Finite (proj1Of m c)) (h2 : Cert.Spec.Finite (proj2Of m c)) :
    (dats m 0 c).arrAt 5 cfg0.N = specOf m c :=
  (dats m 0 c).arrAt_eq_of_cover 5 (specOf m c) (fun t _ => flushed_eq m c t hidx h1 h2) cover

/-- THE RUN, read: the result array at the specification's function of the arguments, the arguments unchanged. -/
theorem run (hidx : ∀ c : Dev nD, Cert.Spec.InRange (pairsOf m c))
    (h1 : ∀ c : Dev nD, Cert.Spec.Finite (proj1Of m c)) (h2 : ∀ c : Dev nD, Cert.Spec.Finite (proj2Of m c)) :
    θ_run defs (onTc (τ := τ) (main (F := Ideal))) ⟨m, fun _ => 0, ρ⟩ fun r => ∀ c : Dev nD,
      r.2.mem ((c : Thread nD τ).loc main_v18) = specOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c (hidx c) (h1 c) (h2 c)), (h c).2⟩)
    (Cert.KernelIdeal.Value.run_blocks m ρ)

end Cert.KValue

end
-- ==== Proof.RefTerm.lean ====
/-
  The reference program's result as ONE pure function of its three live arguments: the index pairs and the two
  projection matrices. It is the composition of the program's host operations in their printed order — each row of
  the pairs sliced out and flattened, one `take` of columns per projection (negative indices wrapped by the number of
  columns, the gather, and the fill where the wrapped index is still out of range), the transposes, the product, the row norms,
  the threshold and the quotient — stated once so that the run of the program and the reading of its value at an
  index meet at this term and nowhere else.
-/
import proofs.«403882_j15375982920237_3_alg».proof.Proof.Gen.ReferenceIdeal

noncomputable section

namespace Cert.RefTerm

open Cert.ReferenceIdeal Idealize.ShloMosaic
open Cert.ReferenceIdeal.Facts₀

variable {F : FTy → Type} [FloatOps F]

/-- The wrapped indices of one `take`, as the column of start indices the gather reads: an index below zero is moved up
    by the number of columns. -/
def wrapped (ids : IVec S1000000 32) : IVec S1000000x1 32 :=
  broadcastInDim S1000000x1 ![0] bcast_S1000000_S1000000x1_0
    (select (cmpi .slt ids (broadcastInDim S1000000 ![] bcast_S_S1000000 (constantI S_ 32 0#32)))
      (addi ids (broadcastInDim S1000000 ![] bcast_S_S1000000 (constantI S_ 32 4096#32))) ids)

/-- Which wrapped indices name a column: at least 0 and at most 4095, per pair. -/
def inBounds (ids : IVec S1000000 32) : IVec S1000000 1 :=
  Host.reduce IntOp.andi
    (andi (cmpi .sge (wrapped ids) (broadcastInDim S1000000x1 ![] bcast_S_S1000000x1 (constantI S_ 32 0#32)))
      (cmpi .sle (wrapped ids) (broadcastInDim S1000000x1 ![0, 1] bcast_S1x1_S1000000x1_0_1
        (broadcastInDim S1x1 ![1] bcast_S1_S1x1_1 (constantI S1 32 4095#32)))))
    (constantI S_ 1 1#1) reducesTo_S1000000x1_S1000000_d1 h_S_

/-- One `take` of columns of a projection: the gathered columns where the wrapped index is in bounds, the fill
    elsewhere. -/
def takeCols (W : FVec F S128x4096 .f32) (ids : IVec S1000000 32) : FVec F S128x1000000 .f32 :=
  select (broadcastInDim S128x1000000 ![1] bcast_S1000000_S128x1000000_1 (inBounds ids))
    (Host.gather gather_S128x4096_S1000000x1_S128x1000000_0_1_n_n_1_1_1281 W (wrapped ids))
    (broadcastInDim S128x1000000 ![] bcast_S_S128x1000000 (constant S_ .f32 0x7FC00000#32))

/-- Row `k` of the pairs as a flat vector of indices. -/
def pairRow (k : Nat) (h : S2x1000000.Slices ![k, 0] S1x1000000) (idx : IVec S2x1000000 32) : IVec S1000000 32 :=
  shapeCast S1000000 (extractStridedSlice S1x1000000 ![k, 0] idx h) shapeCasts_S1x1000000_S1000000

/-- The interactions: the two takes, transposed to one row per pair, multiplied entry by entry. -/
def products (idx : IVec S2x1000000 32) (W1 W2 : FVec F S128x4096 .f32) : FVec F S1000000x128 .f32 :=
  mulf (transpose S1000000x128 [1, 0] (takeCols W1 (pairRow 0 slices_S2x1000000_S1x1000000_0_0 idx)) transposes_S128x1000000_S1000000x128_1_0)
    (transpose S1000000x128 [1, 0] (takeCols W2 (pairRow 1 slices_S2x1000000_S1x1000000_1_0 idx)) transposes_S128x1000000_S1000000x128_1_0)

/-- The row norms of an array of rows, kept as a column. -/
def rowNorms (x : FVec F S1000000x128 .f32) : FVec F S1000000x1 .f32 :=
  Host.sqrt (broadcastInDim S1000000x1 ![0] bcast_S1000000_S1000000x1_0
    (Host.reduceAdd (mulf x x) (constant S_ .f32 0x00000000#32) reducesTo_S1000000x128_S1000000_d1 h_S_))

/-- Rows divided by the larger of their norm and the threshold. -/
def unitRows (x : FVec F S1000000x128 .f32) : FVec F S1000000x128 .f32 :=
  Host.divf x (broadcastInDim S1000000x128 ![0, 1] bcast_S1000000x1_S1000000x128_0_1
    (maximumf (rowNorms x) (broadcastInDim S1000000x1 ![] bcast_S_S1000000x1 (constant S_ .f32 0x2B8CBCCC#32))))

/-- The reference's result as a function of the pairs and the two projections. -/
def refOut (idx : IVec S2x1000000 32) (W1 W2 : FVec F S128x4096 .f32) : FVec F S1000000x128 .f32 :=
  unitRows (products idx W1 W2)

end Cert.RefTerm

end
-- ==== Proof.RefStages.lean ====
/-
  The reference program as a straight line of 63 host operations, and what the line leaves in its result.

  The line falls into three stretches. The first slices row 0 out of the pairs, flattens it, takes the columns of the
  first projection it names (wrapping negative indices, gathering, filling what is out of range) and transposes the
  take to one row per pair; the second does the same with row 1 and the second projection; the third multiplies the
  two, takes the row norms, and divides each row by the larger of its norm and the threshold. Each stretch writes
  buffers the earlier ones do not, so the whole line's result is the third stretch's function of the first two's; and
  each take is read in three short pieces: the wrapped indices, the test that they are in bounds, the gather and fill.
-/
import Idealize.ShloMosaic.Lib.StableHlo.Run
import proofs.«403882_j15375982920237_3_alg».proof.Proof.Gen.ReferenceIdeal
import proofs.«403882_j15375982920237_3_alg».proof.Proof.RefTerm

noncomputable section

namespace Cert.RefRun

open Cert.ReferenceIdeal Idealize.ShloMosaic Idealize.ShloMosaic.TcCoe Idealize.ShloMosaic.StableHlo Idealize.SL.Sem
open Cert.ReferenceIdeal.Facts₀

variable {F : FTy → Type} [FloatOps F]

/-- The bounds test of a column of wrapped indices: at least 0 and at most 4095, row by row. -/
def boundsOf (w5 : IVec S1000000x1 32) : IVec S1000000x1 1 :=
  andi (cmpi .sge w5 (broadcastInDim S1000000x1 ![] bcast_S_S1000000x1 (constantI S_ 32 0#32)))
    (cmpi .sle w5 (broadcastInDim S1000000x1 ![0, 1] bcast_S1x1_S1000000x1_0_1
      (broadcastInDim S1x1 ![1] bcast_S1_S1x1_1 (constantI S1 32 4095#32))))

/-- The gathered columns where the test holds, the fill elsewhere. -/
def fillOf (W : FVec F S128x4096 .f32) (w5 : IVec S1000000x1 32) (ok : IVec S1000000x1 1) : FVec F S128x1000000 .f32 :=
  select (broadcastInDim S128x1000000 ![1] bcast_S1000000_S128x1000000_1
      (Host.reduce IntOp.andi ok (constantI S_ 1 1#1) reducesTo_S1000000x1_S1000000_d1 h_S_))
    (Host.gather gather_S128x4096_S1000000x1_S128x1000000_0_1_n_n_1_1_1281 W w5)
    (broadcastInDim S128x1000000 ![] bcast_S_S128x1000000 (constant S_ .f32 0x7FC00000#32))

/-- The reference term's take, through those two. -/
theorem takeCols_eq (W : FVec F S128x4096 .f32) (ids : IVec S1000000 32) :
    Cert.RefTerm.takeCols W ids = fillOf W (Cert.RefTerm.wrapped ids) (boundsOf (Cert.RefTerm.wrapped ids)) := rfl

/-- The contents after two lines run in turn. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## The first stretch -/

/-- Its operations, in three pieces: up to the wrapped indices; the bounds test; the gather, the fill and the transpose. -/
abbrev opsA1 : List (HloOp τ sig (Elt F)) :=
  [ unary main_arg0 main_v0 (extractStridedSlice S1x1000000 ![0, 0] · slices_S2x1000000_S1x1000000_0_0),
    reshape main_v0 main_v1 rfl shapeCasts_S1x1000000_S1000000,
    TRef.nullary main_call0.c (constantI S_ 32 0#32),
    TRef.unary main_call0.c main_call0.v0 (broadcastInDim S1000000 ![] bcast_S_S1000000),
    TRef.binary (.of main_v1) main_call0.v0 main_call0.v1 (cmpi .slt),
    TRef.nullary main_call0.c_0 (constantI S_ 32 4096#32),
    TRef.unary main_call0.c_0 main_call0.v2 (broadcastInDim S1000000 ![] bcast_S_S1000000),
    TRef.binary (.of main_v1) main_call0.v2 main_call0.v3 addi,
    TRef.ternary main_call0.v1 main_call0.v3 (.of main_v1) main_call0.call0.v0 select,
    TRef.unary main_call0.call0.v0 main_call0.v5 (broadcastInDim S1000000x1 ![0] bcast_S1000000_S1000000x1_0) ]
abbrev opsA2 : List (HloOp τ sig (Elt F)) :=
  [ TRef.nullary main_call0.c_1 (constantI S1 32 4095#32),
    TRef.nullary main_call0.c_2 (constantI S_ 32 0#32),
    TRef.unary main_call0.c_2 main_call0.v6 (broadcastInDim S1000000x1 ![] bcast_S_S1000000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S1000000x1 ![0, 1] bcast_S1x1_S1000000x1_0_1),
    TRef.binary main_call0.v5 main_call0.v9 main_call0.v10 (cmpi .sle),
    TRef.binary main_call0.v7 main_call0.v10 main_call0.v11 andi ]
abbrev opsA3 : List (HloOp τ sig (Elt F)) :=
  [ TRef.nullary main_call0.c_3 (constantI S_ 1 1#1),
    TRef.binary main_call0.v11 main_call0.c_3 main_call0.v12 (fun x v => Host.reduce IntOp.andi x v reducesTo_S1000000x1_S1000000_d1 h_S_),
    TRef.binary (.of main_arg3) main_call0.v5 main_call0.v13 (fun x i => Host.gather gather_S128x4096_S1000000x1_S128x1000000_0_1_n_n_1_1_1281 x i),
    TRef.unary main_call0.v12 main_call0.v14 (broadcastInDim S128x1000000 ![1] bcast_S1000000_S128x1000000_1),
    TRef.nullary main_call0.cst (constant S_ .f32 0x7FC00000#32),
    TRef.unary main_call0.cst main_call0.v15 (broadcastInDim S128x1000000 ![] bcast_S_S128x1000000),
    TRef.ternary main_call0.v14 main_call0.v13 main_call0.v15 main_call0.v16 select,
    unary main_v2 main_v3 (transpose S1000000x128 [1, 0] · transposes_S128x1000000_S1000000x128_1_0) ]
abbrev opsA : List (HloOp τ sig (Elt F)) :=
  [ unary main_arg0 main_v0 (extractStridedSlice S1x1000000 ![0, 0] · slices_S2x1000000_S1x1000000_0_0),
    reshape main_v0 main_v1 rfl shapeCasts_S1x1000000_S1000000,
    TRef.nullary main_call0.c (constantI S_ 32 0#32),
    TRef.unary main_call0.c main_call0.v0 (broadcastInDim S1000000 ![] bcast_S_S1000000),
    TRef.binary (.of main_v1) main_call0.v0 main_call0.v1 (cmpi .slt),
    TRef.nullary main_call0.c_0 (constantI S_ 32 4096#32),
    TRef.unary main_call0.c_0 main_call0.v2 (broadcastInDim S1000000 ![] bcast_S_S1000000),
    TRef.binary (.of main_v1) main_call0.v2 main_call0.v3 addi,
    TRef.ternary main_call0.v1 main_call0.v3 (.of main_v1) main_call0.call0.v0 select,
    TRef.unary main_call0.call0.v0 main_call0.v5 (broadcastInDim S1000000x1 ![0] bcast_S1000000_S1000000x1_0),
    TRef.nullary main_call0.c_1 (constantI S1 32 4095#32),
    TRef.nullary main_call0.c_2 (constantI S_ 32 0#32),
    TRef.unary main_call0.c_2 main_call0.v6 (broadcastInDim S1000000x1 ![] bcast_S_S1000000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S1000000x1 ![0, 1] bcast_S1x1_S1000000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1000000x1_S1000000_d1 h_S_),
    TRef.binary (.of main_arg3) main_call0.v5 main_call0.v13 (fun x i => Host.gather gather_S128x4096_S1000000x1_S128x1000000_0_1_n_n_1_1_1281 x i),
    TRef.unary main_call0.v12 main_call0.v14 (broadcastInDim S128x1000000 ![1] bcast_S1000000_S128x1000000_1),
    TRef.nullary main_call0.cst (constant S_ .f32 0x7FC00000#32),
    TRef.unary main_call0.cst main_call0.v15 (broadcastInDim S128x1000000 ![] bcast_S_S128x1000000),
    TRef.ternary main_call0.v14 main_call0.v13 main_call0.v15 main_call0.v16 select,
    unary main_v2 main_v3 (transpose S1000000x128 [1, 0] · transposes_S128x1000000_S1000000x128_1_0) ]

theorem opsA_split : (opsA : List (HloOp τ sig (Elt F))) = opsA1 ++ (opsA2 ++ opsA3) := rfl

/-- The first piece leaves the wrapped indices of row 0, -/
theorem stageA1_v5 (V : Valuation τ sig (Elt F)) :
    after opsA1 V (main_call0_v5 : DevRef τ sig)
      = Cert.RefTerm.wrapped (Cert.RefTerm.pairRow 0 slices_S2x1000000_S1x1000000_0_0 (V (main_arg0 : DevRef τ sig))) := by
  after_results
  rfl
theorem keepA1_arg3 (V : Valuation τ sig (Elt F)) :
    after opsA1 V (main_arg3 : DevRef τ sig) = V (main_arg3 : DevRef τ sig) := by
  after_results

/-- the second the bounds test of the wrapped indices it finds, -/
theorem stageA2_v11 (V : Valuation τ sig (Elt F)) :
    after opsA2 V (main_call0_v11 : DevRef τ sig)
      = boundsOf (V (main_call0_v5 : DevRef τ sig)) := by
  after_results
  rfl
theorem keepA2_call0_v5 (V : Valuation τ sig (Elt F)) :
    after opsA2 V (main_call0_v5 : DevRef τ sig) = V (main_call0_v5 : DevRef τ sig) := by
  after_results
theorem keepA2_arg3 (V : Valuation τ sig (Elt F)) :
    after opsA2 V (main_arg3 : DevRef τ sig) = V (main_arg3 : DevRef τ sig) := by
  after_results

/-- The third piece, operation by operation: the reduction of the test over its unit axis, the gather, the two broadcasts,
    the select and the transpose. -/
abbrev opsA3a : List (HloOp τ sig (Elt F)) :=
  [ TRef.nullary main_call0.c_3 (constantI S_ 1 1#1),
    TRef.binary main_call0.v11 main_call0.c_3 main_call0.v12 (fun x v => Host.reduce IntOp.andi x v reducesTo_S1000000x1_S1000000_d1 h_S_) ]
abbrev opsA3b : List (HloOp τ sig (Elt F)) :=
  [ TRef.binary (.of main_arg3) main_call0.v5 main_call0.v13 (fun x i => Host.gather gather_S128x4096_S1000000x1_S128x1000000_0_1_n_n_1_1_1281 x i) ]
abbrev opsA3c : List (HloOp τ sig (Elt F)) :=
  [ TRef.unary main_call0.v12 main_call0.v14 (broadcastInDim S128x1000000 ![1] bcast_S1000000_S128x1000000_1) ]
abbrev opsA3d : List (HloOp τ sig (Elt F)) :=
  [ TRef.nullary main_call0.cst (constant S_ .f32 0x7FC00000#32),
    TRef.unary main_call0.cst main_call0.v15 (broadcastInDim S128x1000000 ![] bcast_S_S128x1000000) ]
abbrev opsA3e : List (HloOp τ sig (Elt F)) :=
  [ TRef.ternary main_call0.v14 main_call0.v13 main_call0.v15 main_call0.v16 select,
    unary main_v2 main_v3 (transpose S1000000x128 [1, 0] · transposes_S128x1000000_S1000000x128_1_0) ]

theorem opsA3_split : (opsA3 : List (HloOp τ sig (Elt F))) = opsA3a ++ (opsA3b ++ (opsA3c ++ (opsA3d ++ opsA3e))) := rfl

attribute [local irreducible] Host.reduce in
theorem stageA3a_v12 (V : Valuation τ sig (Elt F)) :
    after opsA3a V (main_call0_v12 : DevRef τ sig) = Host.reduce IntOp.andi (V (main_call0_v11 : DevRef τ sig)) (constantI S_ 1 1#1) reducesTo_S1000000x1_S1000000_d1 h_S_ := by
  after_results
  rfl
theorem keepA3a_arg3 (V : Valuation τ sig (Elt F)) :
    after opsA3a V (main_arg3 : DevRef τ sig) = V (main_arg3 : DevRef τ sig) := by
  after_results
theorem keepA3a_call0_v5 (V : Valuation τ sig (Elt F)) :
    after opsA3a V (main_call0_v5 : DevRef τ sig) = V (main_call0_v5 : DevRef τ sig) := by
  after_results

attribute [local irreducible] Host.gather in
theorem stageA3b_v13 (V : Valuation τ sig (Elt F)) :
    after opsA3b V (main_call0_v13 : DevRef τ sig) = Host.gather gather_S128x4096_S1000000x1_S128x1000000_0_1_n_n_1_1_1281 (V (main_arg3 : DevRef τ sig)) (V (main_call0_v5 : DevRef τ sig)) := by
  after_results
  rfl
theorem keepA3b_call0_v12 (V : Valuation τ sig (Elt F)) :
    after opsA3b V (main_call0_v12 : DevRef τ sig) = V (main_call0_v12 : DevRef τ sig) := by
  after_results

theorem stageA3c_v14 (V : Valuation τ sig (Elt F)) :
    after opsA3c V (main_call0_v14 : DevRef τ sig) = broadcastInDim S128x1000000 ![1] bcast_S1000000_S128x1000000_1 (V (main_call0_v12 : DevRef τ sig)) := by
  after_results
  rfl
theorem keepA3c_call0_v13 (V : Valuation τ sig (Elt F)) :
    after opsA3c V (main_call0_v13 : DevRef τ sig) = V (main_call0_v13 : DevRef τ sig) := by
  after_results

theorem stageA3d_v15 (V : Valuation τ sig (Elt F)) :
    after opsA3d V (main_call0_v15 : DevRef τ sig) = broadcastInDim S128x1000000 ![] bcast_S_S128x1000000 (constant S_ .f32 0x7FC00000#32) := by
  after_results
  rfl
theorem keepA3d_call0_v13 (V : Valuation τ sig (Elt F)) :
    after opsA3d V (main_call0_v13 : DevRef τ sig) = V (main_call0_v13 : DevRef τ sig) := by
  after_results
theorem keepA3d_call0_v14 (V : Valuation τ sig (Elt F)) :
    after opsA3d V (main_call0_v14 : DevRef τ sig) = V (main_call0_v14 : DevRef τ sig) := by
  after_results

theorem stageA3e_v3 (V : Valuation τ sig (Elt F)) :
    after opsA3e V (main_v3 : DevRef τ sig) = transpose S1000000x128 [1, 0] (select (V (main_call0_v14 : DevRef τ sig)) (V (main_call0_v13 : DevRef τ sig)) (V (main_call0_v15 : DevRef τ sig))) transposes_S128x1000000_S1000000x128_1_0 := by
  after_results
  rfl

/-- Together: the gathered columns where the test holds, the fill elsewhere, transposed. -/
theorem stageA3_v3 (V : Valuation τ sig (Elt F)) :
    after opsA3 V (main_v3 : DevRef τ sig)
      = transpose S1000000x128 [1, 0]
          (fillOf (V (main_arg3 : DevRef τ sig)) (V (main_call0_v5 : DevRef τ sig)) (V (main_call0_v11 : DevRef τ sig)))
          transposes_S128x1000000_S1000000x128_1_0 := by
  rw [opsA3_split, after_append, after_append, after_append, after_append, stageA3e_v3, stageA3d_v15, keepA3d_call0_v14,
    keepA3d_call0_v13, stageA3c_v14, keepA3c_call0_v13, stageA3b_v13, keepA3b_call0_v12, stageA3a_v12, keepA3a_arg3,
    keepA3a_call0_v5]
  rfl

/-- So the first stretch leaves the first take, transposed, -/
theorem stageA_v3 (V : Valuation τ sig (Elt F)) :
    after opsA V (main_v3 : DevRef τ sig)
      = transpose S1000000x128 [1, 0]
          (Cert.RefTerm.takeCols (V (main_arg3 : DevRef τ sig))
            (Cert.RefTerm.pairRow 0 slices_S2x1000000_S1x1000000_0_0 (V (main_arg0 : DevRef τ sig))))
          transposes_S128x1000000_S1000000x128_1_0 := by
  rw [opsA_split, after_append, after_append, stageA3_v3, stageA2_v11, keepA2_call0_v5, keepA2_arg3, stageA1_v5, keepA1_arg3,
    takeCols_eq]

/-- and the arguments as they were. -/
theorem keepA_arg0 (V : Valuation τ sig (Elt F)) :
    after opsA V (main_arg0 : DevRef τ sig) = V (main_arg0 : DevRef τ sig) := by
  after_results
theorem keepA_arg1 (V : Valuation τ sig (Elt F)) :
    after opsA V (main_arg1 : DevRef τ sig) = V (main_arg1 : DevRef τ sig) := by
  after_results
theorem keepA_arg2 (V : Valuation τ sig (Elt F)) :
    after opsA V (main_arg2 : DevRef τ sig) = V (main_arg2 : DevRef τ sig) := by
  after_results
theorem keepA_arg3 (V : Valuation τ sig (Elt F)) :
    after opsA V (main_arg3 : DevRef τ sig) = V (main_arg3 : DevRef τ sig) := by
  after_results
theorem keepA_arg4 (V : Valuation τ sig (Elt F)) :
    after opsA V (main_arg4 : DevRef τ sig) = V (main_arg4 : DevRef τ sig) := by
  after_results

/-! ## The second stretch -/

/-- Its operations, in three pieces: up to the wrapped indices; the bounds test; the gather, the fill and the transpose. -/
abbrev opsB1 : List (HloOp τ sig (Elt F)) :=
  [ unary main_arg0 main_v4 (extractStridedSlice S1x1000000 ![1, 0] · slices_S2x1000000_S1x1000000_1_0),
    reshape main_v4 main_v5 rfl shapeCasts_S1x1000000_S1000000,
    TRef.nullary main_call1.c (constantI S_ 32 0#32),
    TRef.unary main_call1.c main_call1.v0 (broadcastInDim S1000000 ![] bcast_S_S1000000),
    TRef.binary (.of main_v5) main_call1.v0 main_call1.v1 (cmpi .slt),
    TRef.nullary main_call1.c_0 (constantI S_ 32 4096#32),
    TRef.unary main_call1.c_0 main_call1.v2 (broadcastInDim S1000000 ![] bcast_S_S1000000),
    TRef.binary (.of main_v5) main_call1.v2 main_call1.v3 addi,
    TRef.ternary main_call1.v1 main_call1.v3 (.of main_v5) main_call1.call0.v0 select,
    TRef.unary main_call1.call0.v0 main_call1.v5 (broadcastInDim S1000000x1 ![0] bcast_S1000000_S1000000x1_0) ]
abbrev opsB2 : List (HloOp τ sig (Elt F)) :=
  [ TRef.nullary main_call1.c_1 (constantI S1 32 4095#32),
    TRef.nullary main_call1.c_2 (constantI S_ 32 0#32),
    TRef.unary main_call1.c_2 main_call1.v6 (broadcastInDim S1000000x1 ![] bcast_S_S1000000x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S1000000x1 ![0, 1] bcast_S1x1_S1000000x1_0_1),
    TRef.binary main_call1.v5 main_call1.v9 main_call1.v10 (cmpi .sle),
    TRef.binary main_call1.v7 main_call1.v10 main_call1.v11 andi ]
abbrev opsB3 : List (HloOp τ sig (Elt F)) :=
  [ TRef.nullary main_call1.c_3 (constantI S_ 1 1#1),
    TRef.binary main_call1.v11 main_call1.c_3 main_call1.v12 (fun x v => Host.reduce IntOp.andi x v reducesTo_S1000000x1_S1000000_d1 h_S_),
    TRef.binary (.of main_arg4) main_call1.v5 main_call1.v13 (fun x i => Host.gather gather_S128x4096_S1000000x1_S128x1000000_0_1_n_n_1_1_1281 x i),
    TRef.unary main_call1.v12 main_call1.v14 (broadcastInDim S128x1000000 ![1] bcast_S1000000_S128x1000000_1),
    TRef.nullary main_call1.cst (constant S_ .f32 0x7FC00000#32),
    TRef.unary main_call1.cst main_call1.v15 (broadcastInDim S128x1000000 ![] bcast_S_S128x1000000),
    TRef.ternary main_call1.v14 main_call1.v13 main_call1.v15 main_call1.v16 select,
    unary main_v6 main_v7 (transpose S1000000x128 [1, 0] · transposes_S128x1000000_S1000000x128_1_0) ]
abbrev opsB : List (HloOp τ sig (Elt F)) :=
  [ unary main_arg0 main_v4 (extractStridedSlice S1x1000000 ![1, 0] · slices_S2x1000000_S1x1000000_1_0),
    reshape main_v4 main_v5 rfl shapeCasts_S1x1000000_S1000000,
    TRef.nullary main_call1.c (constantI S_ 32 0#32),
    TRef.unary main_call1.c main_call1.v0 (broadcastInDim S1000000 ![] bcast_S_S1000000),
    TRef.binary (.of main_v5) main_call1.v0 main_call1.v1 (cmpi .slt),
    TRef.nullary main_call1.c_0 (constantI S_ 32 4096#32),
    TRef.unary main_call1.c_0 main_call1.v2 (broadcastInDim S1000000 ![] bcast_S_S1000000),
    TRef.binary (.of main_v5) main_call1.v2 main_call1.v3 addi,
    TRef.ternary main_call1.v1 main_call1.v3 (.of main_v5) main_call1.call0.v0 select,
    TRef.unary main_call1.call0.v0 main_call1.v5 (broadcastInDim S1000000x1 ![0] bcast_S1000000_S1000000x1_0),
    TRef.nullary main_call1.c_1 (constantI S1 32 4095#32),
    TRef.nullary main_call1.c_2 (constantI S_ 32 0#32),
    TRef.unary main_call1.c_2 main_call1.v6 (broadcastInDim S1000000x1 ![] bcast_S_S1000000x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S1000000x1 ![0, 1] bcast_S1x1_S1000000x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S1000000x1_S1000000_d1 h_S_),
    TRef.binary (.of main_arg4) main_call1.v5 main_call1.v13 (fun x i => Host.gather gather_S128x4096_S1000000x1_S128x1000000_0_1_n_n_1_1_1281 x i),
    TRef.unary main_call1.v12 main_call1.v14 (broadcastInDim S128x1000000 ![1] bcast_S1000000_S128x1000000_1),
    TRef.nullary main_call1.cst (constant S_ .f32 0x7FC00000#32),
    TRef.unary main_call1.cst main_call1.v15 (broadcastInDim S128x1000000 ![] bcast_S_S128x1000000),
    TRef.ternary main_call1.v14 main_call1.v13 main_call1.v15 main_call1.v16 select,
    unary main_v6 main_v7 (transpose S1000000x128 [1, 0] · transposes_S128x1000000_S1000000x128_1_0) ]

theorem opsB_split : (opsB : List (HloOp τ sig (Elt F))) = opsB1 ++ (opsB2 ++ opsB3) := rfl

/-- The first piece leaves the wrapped indices of row 1, -/
theorem stageB1_v5 (V : Valuation τ sig (Elt F)) :
    after opsB1 V (main_call1_v5 : DevRef τ sig)
      = Cert.RefTerm.wrapped (Cert.RefTerm.pairRow 1 slices_S2x1000000_S1x1000000_1_0 (V (main_arg0 : DevRef τ sig))) := by
  after_results
  rfl
theorem keepB1_arg4 (V : Valuation τ sig (Elt F)) :
    after opsB1 V (main_arg4 : DevRef τ sig) = V (main_arg4 : DevRef τ sig) := by
  after_results

/-- the second the bounds test of the wrapped indices it finds, -/
theorem stageB2_v11 (V : Valuation τ sig (Elt F)) :
    after opsB2 V (main_call1_v11 : DevRef τ sig)
      = boundsOf (V (main_call1_v5 : DevRef τ sig)) := by
  after_results
  rfl
theorem keepB2_call1_v5 (V : Valuation τ sig (Elt F)) :
    after opsB2 V (main_call1_v5 : DevRef τ sig) = V (main_call1_v5 : DevRef τ sig) := by
  after_results
theorem keepB2_arg4 (V : Valuation τ sig (Elt F)) :
    after opsB2 V (main_arg4 : DevRef τ sig) = V (main_arg4 : DevRef τ sig) := by
  after_results

/-- The third piece, operation by operation: the reduction of the test over its unit axis, the gather, the two broadcasts,
    the select and the transpose. -/
abbrev opsB3a : List (HloOp τ sig (Elt F)) :=
  [ TRef.nullary main_call1.c_3 (constantI S_ 1 1#1),
    TRef.binary main_call1.v11 main_call1.c_3 main_call1.v12 (fun x v => Host.reduce IntOp.andi x v reducesTo_S1000000x1_S1000000_d1 h_S_) ]
abbrev opsB3b : List (HloOp τ sig (Elt F)) :=
  [ TRef.binary (.of main_arg4) main_call1.v5 main_call1.v13 (fun x i => Host.gather gather_S128x4096_S1000000x1_S128x1000000_0_1_n_n_1_1_1281 x i) ]
abbrev opsB3c : List (HloOp τ sig (Elt F)) :=
  [ TRef.unary main_call1.v12 main_call1.v14 (broadcastInDim S128x1000000 ![1] bcast_S1000000_S128x1000000_1) ]
abbrev opsB3d : List (HloOp τ sig (Elt F)) :=
  [ TRef.nullary main_call1.cst (constant S_ .f32 0x7FC00000#32),
    TRef.unary main_call1.cst main_call1.v15 (broadcastInDim S128x1000000 ![] bcast_S_S128x1000000) ]
abbrev opsB3e : List (HloOp τ sig (Elt F)) :=
  [ TRef.ternary main_call1.v14 main_call1.v13 main_call1.v15 main_call1.v16 select,
    unary main_v6 main_v7 (transpose S1000000x128 [1, 0] · transposes_S128x1000000_S1000000x128_1_0) ]

theorem opsB3_split : (opsB3 : List (HloOp τ sig (Elt F))) = opsB3a ++ (opsB3b ++ (opsB3c ++ (opsB3d ++ opsB3e))) := rfl

attribute [local irreducible] Host.reduce in
theorem stageB3a_v12 (V : Valuation τ sig (Elt F)) :
    after opsB3a V (main_call1_v12 : DevRef τ sig) = Host.reduce IntOp.andi (V (main_call1_v11 : DevRef τ sig)) (constantI S_ 1 1#1) reducesTo_S1000000x1_S1000000_d1 h_S_ := by
  after_results
  rfl
theorem keepB3a_arg4 (V : Valuation τ sig (Elt F)) :
    after opsB3a V (main_arg4 : DevRef τ sig) = V (main_arg4 : DevRef τ sig) := by
  after_results
theorem keepB3a_call1_v5 (V : Valuation τ sig (Elt F)) :
    after opsB3a V (main_call1_v5 : DevRef τ sig) = V (main_call1_v5 : DevRef τ sig) := by
  after_results

attribute [local irreducible] Host.gather in
theorem stageB3b_v13 (V : Valuation τ sig (Elt F)) :
    after opsB3b V (main_call1_v13 : DevRef τ sig) = Host.gather gather_S128x4096_S1000000x1_S128x1000000_0_1_n_n_1_1_1281 (V (main_arg4 : DevRef τ sig)) (V (main_call1_v5 : DevRef τ sig)) := by
  after_results
  rfl
theorem keepB3b_call1_v12 (V : Valuation τ sig (Elt F)) :
    after opsB3b V (main_call1_v12 : DevRef τ sig) = V (main_call1_v12 : DevRef τ sig) := by
  after_results

theorem stageB3c_v14 (V : Valuation τ sig (Elt F)) :
    after opsB3c V (main_call1_v14 : DevRef τ sig) = broadcastInDim S128x1000000 ![1] bcast_S1000000_S128x1000000_1 (V (main_call1_v12 : DevRef τ sig)) := by
  after_results
  rfl
theorem keepB3c_call1_v13 (V : Valuation τ sig (Elt F)) :
    after opsB3c V (main_call1_v13 : DevRef τ sig) = V (main_call1_v13 : DevRef τ sig) := by
  after_results

theorem stageB3d_v15 (V : Valuation τ sig (Elt F)) :
    after opsB3d V (main_call1_v15 : DevRef τ sig) = broadcastInDim S128x1000000 ![] bcast_S_S128x1000000 (constant S_ .f32 0x7FC00000#32) := by
  after_results
  rfl
theorem keepB3d_call1_v13 (V : Valuation τ sig (Elt F)) :
    after opsB3d V (main_call1_v13 : DevRef τ sig) = V (main_call1_v13 : DevRef τ sig) := by
  after_results
theorem keepB3d_call1_v14 (V : Valuation τ sig (Elt F)) :
    after opsB3d V (main_call1_v14 : DevRef τ sig) = V (main_call1_v14 : DevRef τ sig) := by
  after_results

theorem stageB3e_v7 (V : Valuation τ sig (Elt F)) :
    after opsB3e V (main_v7 : DevRef τ sig) = transpose S1000000x128 [1, 0] (select (V (main_call1_v14 : DevRef τ sig)) (V (main_call1_v13 : DevRef τ sig)) (V (main_call1_v15 : DevRef τ sig))) transposes_S128x1000000_S1000000x128_1_0 := by
  after_results
  rfl

/-- Together: the gathered columns where the test holds, the fill elsewhere, transposed. -/
theorem stageB3_v3 (V : Valuation τ sig (Elt F)) :
    after opsB3 V (main_v7 : DevRef τ sig)
      = transpose S1000000x128 [1, 0]
          (fillOf (V (main_arg4 : DevRef τ sig)) (V (main_call1_v5 : DevRef τ sig)) (V (main_call1_v11 : DevRef τ sig)))
          transposes_S128x1000000_S1000000x128_1_0 := by
  rw [opsB3_split, after_append, after_append, after_append, after_append, stageB3e_v7, stageB3d_v15, keepB3d_call1_v14,
    keepB3d_call1_v13, stageB3c_v14, keepB3c_call1_v13, stageB3b_v13, keepB3b_call1_v12, stageB3a_v12, keepB3a_arg4,
    keepB3a_call1_v5]
  rfl

/-- So the second stretch leaves the second take, transposed, -/
theorem stageB_v7 (V : Valuation τ sig (Elt F)) :
    after opsB V (main_v7 : DevRef τ sig)
      = transpose S1000000x128 [1, 0]
          (Cert.RefTerm.takeCols (V (main_arg4 : DevRef τ sig))
            (Cert.RefTerm.pairRow 1 slices_S2x1000000_S1x1000000_1_0 (V (main_arg0 : DevRef τ sig))))
          transposes_S128x1000000_S1000000x128_1_0 := by
  rw [opsB_split, after_append, after_append, stageB3_v3, stageB2_v11, keepB2_call1_v5, keepB2_arg4, stageB1_v5, keepB1_arg4,
    takeCols_eq]

/-- and the first take and the arguments as they were. -/
theorem keepB_v3 (V : Valuation τ sig (Elt F)) :
    after opsB V (main_v3 : DevRef τ sig) = V (main_v3 : DevRef τ sig) := by
  after_results
theorem keepB_arg0 (V : Valuation τ sig (Elt F)) :
    after opsB V (main_arg0 : DevRef τ sig) = V (main_arg0 : DevRef τ sig) := by
  after_results
theorem keepB_arg1 (V : Valuation τ sig (Elt F)) :
    after opsB V (main_arg1 : DevRef τ sig) = V (main_arg1 : DevRef τ sig) := by
  after_results
theorem keepB_arg2 (V : Valuation τ sig (Elt F)) :
    after opsB V (main_arg2 : DevRef τ sig) = V (main_arg2 : DevRef τ sig) := by
  after_results
theorem keepB_arg3 (V : Valuation τ sig (Elt F)) :
    after opsB V (main_arg3 : DevRef τ sig) = V (main_arg3 : DevRef τ sig) := by
  after_results
theorem keepB_arg4 (V : Valuation τ sig (Elt F)) :
    after opsB V (main_arg4 : DevRef τ sig) = V (main_arg4 : DevRef τ sig) := by
  after_results

/-! ## The third stretch -/

/-- The product of the two takes, its row norms, the threshold, the quotient. -/
abbrev opsC : List (HloOp τ sig (Elt F)) :=
  [ binary main_v3 main_v7 main_v8 mulf,
    TRef.binary (.of main_v8) (.of main_v8) main_call2.v0 mulf,
    TRef.nullary main_call2.cst (constant S_ .f32 0x00000000#32),
    TRef.binary main_call2.v0 main_call2.cst main_call2.v1 (fun x v => Host.reduceAdd x v reducesTo_S1000000x128_S1000000_d1 h_S_),
    TRef.unary main_call2.v1 main_call2.v2 (broadcastInDim S1000000x1 ![0] bcast_S1000000_S1000000x1_0),
    TRef.unary main_call2.v2 main_call2.v3 Host.sqrt,
    nullary main_cst (constant S_ .f32 0x2B8CBCCC#32),
    unary main_cst main_v10 (broadcastInDim S1000000x1 ![] bcast_S_S1000000x1),
    binary main_v9 main_v10 main_v11 maximumf,
    unary main_v11 main_v12 (broadcastInDim S1000000x128 ![0, 1] bcast_S1000000x1_S1000000x128_0_1),
    binary main_v8 main_v12 main_v13 Host.divf ]

attribute [local irreducible] Host.reduceAdd in
/-- It leaves the unit rows of the product of the two takes, -/
theorem stageC_v13 (V : Valuation τ sig (Elt F)) :
    after opsC V (main_v13 : DevRef τ sig)
      = Cert.RefTerm.unitRows (mulf (V (main_v3 : DevRef τ sig)) (V (main_v7 : DevRef τ sig))) := by
  after_results
  rfl

/-- and the arguments as they were. -/
theorem keepC_arg0 (V : Valuation τ sig (Elt F)) :
    after opsC V (main_arg0 : DevRef τ sig) = V (main_arg0 : DevRef τ sig) := by
  after_results
theorem keepC_arg1 (V : Valuation τ sig (Elt F)) :
    after opsC V (main_arg1 : DevRef τ sig) = V (main_arg1 : DevRef τ sig) := by
  after_results
theorem keepC_arg2 (V : Valuation τ sig (Elt F)) :
    after opsC V (main_arg2 : DevRef τ sig) = V (main_arg2 : DevRef τ sig) := by
  after_results
theorem keepC_arg3 (V : Valuation τ sig (Elt F)) :
    after opsC V (main_arg3 : DevRef τ sig) = V (main_arg3 : DevRef τ sig) := by
  after_results
theorem keepC_arg4 (V : Valuation τ sig (Elt F)) :
    after opsC V (main_arg4 : DevRef τ sig) = V (main_arg4 : DevRef τ sig) := by
  after_results

/-! ## The whole line -/

/-- The program's operations in order, the calls unfolded at their sites. -/
abbrev ops : List (HloOp τ sig (Elt F)) :=
  [ unary main_arg0 main_v0 (extractStridedSlice S1x1000000 ![0, 0] · slices_S2x1000000_S1x1000000_0_0),
    reshape main_v0 main_v1 rfl shapeCasts_S1x1000000_S1000000,
    TRef.nullary main_call0.c (constantI S_ 32 0#32),
    TRef.unary main_call0.c main_call0.v0 (broadcastInDim S1000000 ![] bcast_S_S1000000),
    TRef.binary (.of main_v1) main_call0.v0 main_call0.v1 (cmpi .slt),
    TRef.nullary main_call0.c_0 (constantI S_ 32 4096#32),
    TRef.unary main_call0.c_0 main_call0.v2 (broadcastInDim S1000000 ![] bcast_S_S1000000),
    TRef.binary (.of main_v1) main_call0.v2 main_call0.v3 addi,
    TRef.ternary main_call0.v1 main_call0.v3 (.of main_v1) main_call0.call0.v0 select,
    TRef.unary main_call0.call0.v0 main_call0.v5 (broadcastInDim S1000000x1 ![0] bcast_S1000000_S1000000x1_0),
    TRef.nullary main_call0.c_1 (constantI S1 32 4095#32),
    TRef.nullary main_call0.c_2 (constantI S_ 32 0#32),
    TRef.unary main_call0.c_2 main_call0.v6 (broadcastInDim S1000000x1 ![] bcast_S_S1000000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S1000000x1 ![0, 1] bcast_S1x1_S1000000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1000000x1_S1000000_d1 h_S_),
    TRef.binary (.of main_arg3) main_call0.v5 main_call0.v13 (fun x i => Host.gather gather_S128x4096_S1000000x1_S128x1000000_0_1_n_n_1_1_1281 x i),
    TRef.unary main_call0.v12 main_call0.v14 (broadcastInDim S128x1000000 ![1] bcast_S1000000_S128x1000000_1),
    TRef.nullary main_call0.cst (constant S_ .f32 0x7FC00000#32),
    TRef.unary main_call0.cst main_call0.v15 (broadcastInDim S128x1000000 ![] bcast_S_S128x1000000),
    TRef.ternary main_call0.v14 main_call0.v13 main_call0.v15 main_call0.v16 select,
    unary main_v2 main_v3 (transpose S1000000x128 [1, 0] · transposes_S128x1000000_S1000000x128_1_0),
    unary main_arg0 main_v4 (extractStridedSlice S1x1000000 ![1, 0] · slices_S2x1000000_S1x1000000_1_0),
    reshape main_v4 main_v5 rfl shapeCasts_S1x1000000_S1000000,
    TRef.nullary main_call1.c (constantI S_ 32 0#32),
    TRef.unary main_call1.c main_call1.v0 (broadcastInDim S1000000 ![] bcast_S_S1000000),
    TRef.binary (.of main_v5) main_call1.v0 main_call1.v1 (cmpi .slt),
    TRef.nullary main_call1.c_0 (constantI S_ 32 4096#32),
    TRef.unary main_call1.c_0 main_call1.v2 (broadcastInDim S1000000 ![] bcast_S_S1000000),
    TRef.binary (.of main_v5) main_call1.v2 main_call1.v3 addi,
    TRef.ternary main_call1.v1 main_call1.v3 (.of main_v5) main_call1.call0.v0 select,
    TRef.unary main_call1.call0.v0 main_call1.v5 (broadcastInDim S1000000x1 ![0] bcast_S1000000_S1000000x1_0),
    TRef.nullary main_call1.c_1 (constantI S1 32 4095#32),
    TRef.nullary main_call1.c_2 (constantI S_ 32 0#32),
    TRef.unary main_call1.c_2 main_call1.v6 (broadcastInDim S1000000x1 ![] bcast_S_S1000000x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S1000000x1 ![0, 1] bcast_S1x1_S1000000x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S1000000x1_S1000000_d1 h_S_),
    TRef.binary (.of main_arg4) main_call1.v5 main_call1.v13 (fun x i => Host.gather gather_S128x4096_S1000000x1_S128x1000000_0_1_n_n_1_1_1281 x i),
    TRef.unary main_call1.v12 main_call1.v14 (broadcastInDim S128x1000000 ![1] bcast_S1000000_S128x1000000_1),
    TRef.nullary main_call1.cst (constant S_ .f32 0x7FC00000#32),
    TRef.unary main_call1.cst main_call1.v15 (broadcastInDim S128x1000000 ![] bcast_S_S128x1000000),
    TRef.ternary main_call1.v14 main_call1.v13 main_call1.v15 main_call1.v16 select,
    unary main_v6 main_v7 (transpose S1000000x128 [1, 0] · transposes_S128x1000000_S1000000x128_1_0),
    binary main_v3 main_v7 main_v8 mulf,
    TRef.binary (.of main_v8) (.of main_v8) main_call2.v0 mulf,
    TRef.nullary main_call2.cst (constant S_ .f32 0x00000000#32),
    TRef.binary main_call2.v0 main_call2.cst main_call2.v1 (fun x v => Host.reduceAdd x v reducesTo_S1000000x128_S1000000_d1 h_S_),
    TRef.unary main_call2.v1 main_call2.v2 (broadcastInDim S1000000x1 ![0] bcast_S1000000_S1000000x1_0),
    TRef.unary main_call2.v2 main_call2.v3 Host.sqrt,
    nullary main_cst (constant S_ .f32 0x2B8CBCCC#32),
    unary main_cst main_v10 (broadcastInDim S1000000x1 ![] bcast_S_S1000000x1),
    binary main_v9 main_v10 main_v11 maximumf,
    unary main_v11 main_v12 (broadcastInDim S1000000x128 ![0, 1] bcast_S1000000x1_S1000000x128_0_1),
    binary main_v8 main_v12 main_v13 Host.divf ]

/-- The line is its three stretches, one after the other. -/
theorem ops_split : (ops : List (HloOp τ sig (Elt F))) = opsA ++ (opsB ++ opsC) := rfl

/-- THE RESULT of the line, from any contents: the reference term of the three live arguments. -/
theorem out_eq (V : Valuation τ sig (Elt F)) :
    after ops V (main_v13 : DevRef τ sig)
      = Cert.RefTerm.refOut (V (main_arg0 : DevRef τ sig)) (V (main_arg3 : DevRef τ sig)) (V (main_arg4 : DevRef τ sig)) := by
  rw [ops_split, after_append, after_append, stageC_v13, stageB_v7, keepB_v3, stageA_v3, keepA_arg0, keepA_arg4]
  rfl

/-- Argument 0 is as it was. -/
theorem arg0_eq (V : Valuation τ sig (Elt F)) :
    after ops V (main_arg0 : DevRef τ sig) = V (main_arg0 : DevRef τ sig) := by
  rw [ops_split, after_append, after_append, keepC_arg0, keepB_arg0, keepA_arg0]

/-- Argument 1 is as it was. -/
theorem arg1_eq (V : Valuation τ sig (Elt F)) :
    after ops V (main_arg1 : DevRef τ sig) = V (main_arg1 : DevRef τ sig) := by
  rw [ops_split, after_append, after_append, keepC_arg1, keepB_arg1, keepA_arg1]

/-- Argument 2 is as it was. -/
theorem arg2_eq (V : Valuation τ sig (Elt F)) :
    after ops V (main_arg2 : DevRef τ sig) = V (main_arg2 : DevRef τ sig) := by
  rw [ops_split, after_append, after_append, keepC_arg2, keepB_arg2, keepA_arg2]

/-- Argument 3 is as it was. -/
theorem arg3_eq (V : Valuation τ sig (Elt F)) :
    after ops V (main_arg3 : DevRef τ sig) = V (main_arg3 : DevRef τ sig) := by
  rw [ops_split, after_append, after_append, keepC_arg3, keepB_arg3, keepA_arg3]

/-- Argument 4 is as it was. -/
theorem arg4_eq (V : Valuation τ sig (Elt F)) :
    after ops V (main_arg4 : DevRef τ sig) = V (main_arg4 : DevRef τ sig) := by
  rw [ops_split, after_append, after_append, keepC_arg4, keepB_arg4, keepA_arg4]

end Cert.RefRun

end
-- ==== Proof.RefRun.lean ====
/-
  The reference program's run.

  The program is a straight line of sixty-three whole-array operations. Row 0 of the index pairs is sliced out and
  flattened. The first take of columns follows, twenty-three operations: zero and its broadcast, the test "index below
  zero", 4096 and its broadcast, the index moved up by 4096, the choice between the moved index and the index itself,
  the chosen index as a column, the bounds 4095 and 0 with their broadcasts, the two comparisons against them and their
  conjunction, the conjunction reduced along the unit axis, the gather of columns of the first projection, the
  in-range mask broadcast over the 128 rows, the fill value and its broadcast, and the choice between gathered column
  and fill. The take is transposed to one row per pair. Row 1 of the pairs and the second projection go through the
  same operations. The two transposes are multiplied entry by entry. The row norms of the product are its squares, zero,
  the sum along each row, the sums as a column, the square root. Last come the threshold and its broadcast, the larger
  of norm and threshold, that column broadcast along the rows, and the quotient of the product by it.

  Every operation reads and writes buffers of the TensorCore only and determines what it writes, so every weakly fair
  execution terminates with each buffer at the fold of the operations over the contents at launch. At the result buffer
  that fold is `Cert.RefTerm.refOut` of the pairs and the two projections; at each argument buffer it is the argument's
  own contents, no operation writing there.
-/
import Idealize.ShloMosaic.Lib.StableHlo.Run
import proofs.«403882_j15375982920237_3_alg».proof.Proof.Gen.ReferenceIdeal
import proofs.«403882_j15375982920237_3_alg».proof.Proof.RefTerm
import proofs.«403882_j15375982920237_3_alg».proof.Proof.RefStages

noncomputable section

namespace Cert.RefRun

open Cert.ReferenceIdeal Idealize.ShloMosaic Idealize.ShloMosaic.TcCoe Idealize.ShloMosaic.StableHlo Idealize.SL.Sem
open Cert.ReferenceIdeal.Facts₀

variable {F : FTy → Type} [FloatOps F]

-- sixty-three sequencing steps are reassociated, one level of recursion for each
set_option maxRecDepth 2048 in
/-- The program is the straight line `ops`: with the body of each called function put in place of its call, over that
    call's own buffers, and sequencing reassociated, both sides are one chain of the same sixty-three steps. -/
theorem main_eq (c : Dev nD) : main (F := F) c = seq ops := by
  simp only [main, fn_take.body, fn_where.body, fn_norm.body, seq, bind_assoc, pure_bind]
  rfl

/-- No buffer of the signature is scoped. -/
theorem scopedRefs_eq : (Finset.univ.filter fun b : Ref sig .tc => b.isScoped) = ∅ := by decide
/-- No semaphore of the signature is scoped: there is none. -/
theorem scopedSems_eq : (Finset.univ.filter fun sm : SemLoc sig => sm.isScoped .tc) = ∅ := by decide

/-- Each operation's operands and result are buffers of the TensorCore. -/
theorem ops_sub : (ops : List (HloOp τ sig (Elt F))).Forall fun op => op.bufs ⊆ tcRefs τ sig :=
  ⟨unary_bufs_sub .., reshape_bufs_sub .., nullary_bufs_sub .., unary_bufs_sub .., binary_bufs_sub .., nullary_bufs_sub ..,
    unary_bufs_sub .., binary_bufs_sub .., ternary_bufs_sub .., unary_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., unary_bufs_sub .., nullary_bufs_sub .., unary_bufs_sub ..,
    ternary_bufs_sub .., unary_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    nullary_bufs_sub .., nullary_bufs_sub .., unary_bufs_sub .., binary_bufs_sub .., unary_bufs_sub .., unary_bufs_sub ..,
    binary_bufs_sub .., binary_bufs_sub .., nullary_bufs_sub .., binary_bufs_sub .., binary_bufs_sub .., unary_bufs_sub ..,
    nullary_bufs_sub .., unary_bufs_sub .., ternary_bufs_sub .., unary_bufs_sub .., binary_bufs_sub .., binary_bufs_sub ..,
    nullary_bufs_sub .., binary_bufs_sub .., unary_bufs_sub .., unary_bufs_sub .., nullary_bufs_sub .., unary_bufs_sub ..,
    binary_bufs_sub .., unary_bufs_sub .., binary_bufs_sub ..⟩

/-- At the compiled mesh, for any float values, from any memory with every counter at zero: every weakly fair execution
    of the program terminates, and in every final state each TensorCore buffer holds the fold of the sixty-three
    operations over the contents at launch. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The run read at the six buffers that matter: the result buffer ends at `Cert.RefTerm.refOut` of the launch contents
    of the pairs and of the two projections, and each of the five argument buffers ends at its launch contents. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v13)
          = Cert.RefTerm.refOut (m ((c.tc : Thread nD τ).loc main_arg0)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono
    (fun _ h c => ⟨(h c main_v13).trans (out_eq _), (h c main_arg0).trans (arg0_eq _), (h c main_arg1).trans (arg1_eq _),
      (h c main_arg2).trans (arg2_eq _), (h c main_arg3).trans (arg3_eq _), (h c main_arg4).trans (arg4_eq _)⟩)
    (run_main m ρ)

end Cert.RefRun

end
-- ==== Proof.LibGatherCols.lean ====
/-
  A gather of whole columns, read at an index.

  The operand is a matrix `x : [D, N]`; the start indices are a column `idx : [R, 1]` of integers; the result is the
  matrix `[D, R]` whose column `t` is the operand's column number `idx[t, 0]`. In StableHLO's vocabulary: offset axis
  `0` of the result runs over the operand's axis `0` (slice size `D`), the operand's axis `1` is collapsed (slice size
  `1`) and is the one axis the start index names, and the index vector lies along axis `1` of the start indices. The
  start index is read as a signed integer and clamped into `[0, N − 1]`, as every gather clamps.
-/
import Idealize.ShloMosaic.PureOps
import Idealize.ShloMosaic.Lib.ValueIdx

noncomputable section

namespace Idealize.ShloMosaic.GatherCols

open Idealize.ShloMosaic Idealize.ShloMosaic.ValueIdx

variable {α : Type}

/-- The dimension numbers of a gather of columns: operand `[D, N]`, start indices `[R, 1]`, result `[D, R]`; the
    result's axis `0` is the offset axis, the operand's axis `1` is collapsed and is the axis a start index names, the
    index vector lies along the start indices' axis `1`, and a slice is one whole column. -/
abbrev colDims (D N R : Nat)
    (wf : GatherDims.WF ⟨2, ![D, N]⟩ ⟨2, ![R, 1]⟩ ⟨2, ![D, R]⟩ [0] [1] [] [1] [] 1 ![D, 1]) :
    GatherDims ⟨2, ![D, N]⟩ ⟨2, ![R, 1]⟩ ⟨2, ![D, R]⟩ where
  offsetDims := [0]
  collapsedSliceDims := [1]
  operandBatchingDims := []
  startIndicesBatchingDims := []
  startIndexMap := [1]
  indexVectorDim := 1
  sliceSizes := ![D, 1]
  wf := wf

/-- The place `[t, 0]` in the start indices where the result's column `t` reads its column number. -/
abbrev colIdx {D R : Nat} (y : (⟨2, ![D, R]⟩ : Shape).Idx) : (⟨2, ![R, 1]⟩ : Shape).Idx :=
  ix2 (⟨(y 1).val, idx2_lt1 y⟩ : Fin R) (⟨0, Nat.one_pos⟩ : Fin 1)

/-- On the operand's row axis the gather reads the result's own row: no start index, no batching, the offset
    coordinate is the result's coordinate on its offset axis. -/
theorem operandIdx_row {D N R w : Nat}
    (wf : GatherDims.WF ⟨2, ![D, N]⟩ ⟨2, ![R, 1]⟩ ⟨2, ![D, R]⟩ [0] [1] [] [1] [] 1 ![D, 1])
    (idx : IVec ⟨2, ![R, 1]⟩ w) (y : (⟨2, ![D, R]⟩ : Shape).Idx) :
    ((colDims D N R wf).operandIdx y idx 0).val = (y 0).val := by
  show (colDims D N R wf).start y idx 0 + (colDims D N R wf).batchCoord y 0 + (colDims D N R wf).offCoord y 0 = _
  rw [GatherDims.batchCoord_eq_zero _ _ _ List.not_mem_nil]
  have hstart : (colDims D N R wf).start y idx 0 = 0 := by
    unfold GatherDims.start
    rw [dif_neg (fun h : (0 : Fin 2) ∈ (colDims D N R wf).startIndexMap =>
      absurd (congrArg Fin.val (List.mem_singleton.mp h)) Nat.zero_ne_one)]
  have hk : (0 : Fin 2) ∈ (colDims D N R wf).sKept :=
    (GatherDims.mem_sKept _ _).mpr ⟨fun h => absurd (congrArg Fin.val (List.mem_singleton.mp h)) Nat.zero_ne_one, List.not_mem_nil⟩
  rw [hstart]
  unfold GatherDims.offCoord
  rw [dif_pos hk]
  simp only [Nat.zero_add, Nat.add_zero]
  rfl

/-- On the operand's column axis the gather reads the clamped start index: the axis is collapsed, so the offset
    coordinate is zero, and there is no batching. -/
theorem operandIdx_col {D N R w : Nat}
    (wf : GatherDims.WF ⟨2, ![D, N]⟩ ⟨2, ![R, 1]⟩ ⟨2, ![D, R]⟩ [0] [1] [] [1] [] 1 ![D, 1])
    (idx : IVec ⟨2, ![R, 1]⟩ w) (y : (⟨2, ![D, R]⟩ : Shape).Idx) :
    ((colDims D N R wf).operandIdx y idx 1).val = min (idx (colIdx y)).toInt.toNat (N - 1) := by
  show (colDims D N R wf).start y idx 1 + (colDims D N R wf).batchCoord y 1 + (colDims D N R wf).offCoord y 1 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (1 : Fin 2) ∈ (colDims D N R wf).startIndexMap from List.mem_singleton.mpr rfl)]
  have hsi : (colDims D N R wf).siIdx y ⟨List.idxOf (1 : Fin 2) (colDims D N R wf).startIndexMap,
      List.idxOf_lt_length_iff.2 (List.mem_singleton.mpr rfl)⟩ = colIdx y := by
    funext b; refine Fin.ext ?_
    match b with
    | ⟨0, _⟩ => rfl
    | ⟨1, _⟩ => rfl
  rw [hsi]
  rfl

/-- THE GATHER READ AT `(j, t)`: the operand's row `j` at the column whose number is the start index `idx[t, 0]`, read
    signed and clamped into `[0, N − 1]`. -/
theorem gather_cols_apply {D N R w : Nat} (hN : 0 < N)
    (wf : GatherDims.WF ⟨2, ![D, N]⟩ ⟨2, ![R, 1]⟩ ⟨2, ![D, R]⟩ [0] [1] [] [1] [] 1 ![D, 1])
    (x : (⟨2, ![D, N]⟩ : Shape).Idx → α) (idx : IVec ⟨2, ![R, 1]⟩ w) (y : (⟨2, ![D, R]⟩ : Shape).Idx) :
    Host.gather (colDims D N R wf) x idx y
      = x (ix2 (⟨(y 0).val, idx2_lt0 y⟩ : Fin D)
          (⟨min (idx (colIdx y)).toInt.toNat (N - 1), by omega⟩ : Fin N)) := by
  unfold Host.gather
  congr 1
  funext a
  refine Fin.ext ?_
  match a with
  | ⟨0, _⟩ => exact operandIdx_row wf idx y
  | ⟨1, _⟩ => exact operandIdx_col wf idx y

end Idealize.ShloMosaic.GatherCols

end
-- ==== Proof.RefValue.lean ====
/-
  The reference's result read at one index.

  The reference is a composition of array operations; read at the index (r, j) each of them is a statement about one
  or a few entries of its operands. Going through them in order: a row of the index pairs, flattened, at r is the
  pair array's entry in that row and column r; an index word below 4096 is not negative as a signed number, so the
  wrap leaves it alone and both bound tests hold; the gather of columns then reads the column the word names, and the
  fill is never chosen; the transposes swap the coordinates and the product multiplies the two picked entries; the row
  norm is the square root of the sum of the 128 squares of row r; and the quotient divides by the larger of that norm and
  the threshold. Together this is the function the specification states.
-/
import proofs.«403882_j15375982920237_3_alg».proof.Proof.Spec
import proofs.«403882_j15375982920237_3_alg».proof.Proof.RefTerm
import proofs.«403882_j15375982920237_3_alg».proof.Proof.LibGatherCols
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws
import Idealize.ShloMosaic.PureOps.Reduce
import Idealize.ShloMosaic.Lib.StableHlo.Predicate

noncomputable section

open scoped BigOperators

namespace Cert.RefValue

open Cert.ReferenceIdeal Idealize.ShloMosaic Idealize.ShloMosaic.ValueIdx
open Cert.ReferenceIdeal.Facts₀

/-! ## Small facts about the operations, at any shape -/

section General
variable {s t : Shape} {w : Nat}

/-- An integer comparison at an index compares the two words there. -/
theorem cmpi_apply (p : CmpIPredicate) (x y : IVec s w) (i : s.Idx) : cmpi p x y i = IntOp.cmpi p (x i) (y i) := rfl

/-- A bitwise and at an index is the and of the two words there. -/
theorem andi_apply (x y : IVec s w) (i : s.Idx) : andi x y i = IntOp.andi (x i) (y i) := rfl

/-- A constant laid out along any axes reads the constant's word everywhere. -/
theorem bcast_constantI (dims : Fin s.rank → Fin t.rank) (h : s.BroadcastsInDim t dims) (b : BitVec w) (j : t.Idx) :
    broadcastInDim t dims h (constantI s w b) j = b := rfl

/-- So does a constant laid out twice. -/
theorem bcast_bcast_constantI {u : Shape} (dims : Fin s.rank → Fin t.rank) (h : s.BroadcastsInDim t dims)
    (dims' : Fin u.rank → Fin s.rank) (h' : u.BroadcastsInDim s dims') (b : BitVec w) (j : t.Idx) :
    broadcastInDim t dims h (broadcastInDim s dims' h' (constantI u w b)) j = b := rfl

/-- The host's square root at an index is the square root of the entry there. -/
theorem hostSqrt_apply {φ : FTy} (a : FVec Ideal s φ) (i : s.Idx) : Host.sqrt a i = Ideal.sqrt (a i) := rfl

/-- A coordinate on an axis whose extent is not one is kept by a broadcast. -/
theorem keep_coord (n v : ℕ) (hn : n ≠ 1) : v = if n = 1 then 0 else v := (if_neg hn).symm

/-- The conjunction over a one-element range, started from the bit 1, of a family whose one member is 1, is 1. -/
theorem fold_andi_one (f : Fin 1 → BitVec 1) (h0 : f 0 = 1#1) :
    (Finset.univ : Finset (Fin 1)).fold IntOp.andi 1#1 f = 1#1 := by
  rw [Finset.univ_unique, Finset.fold_singleton, show (default : Fin 1) = 0 from rfl, h0]
  rfl

/-- A conjunction along the unit axis of an n-by-1 array of bits, started from 1, is 1 at r when the array's one
    entry in row r is 1. -/
theorem reduce_andi_unit_col {n : Nat} (X : IVec ⟨2, ![n, 1]⟩ 1) (init : IVec ⟨0, ![]⟩ 1)
    (h' : (⟨2, ![n, 1]⟩ : Shape).ReducesTo [1] ⟨1, ![n]⟩) (hu : 0 < (⟨0, ![]⟩ : Shape).numel) (r : Fin n)
    (hinit : init (Shape.Idx.first hu) = 1#1) (hX : X (ix2 r (0 : Fin 1)) = 1#1) :
    Host.reduce IntOp.andi X init h' hu (ix1 r) = 1#1 := by
  have hR : (⟨2, ![n, 1]⟩ : Shape).Reduces [1] ⟨1, ![n]⟩ := ⟨h'.1, Nat.one_pos, h'.2⟩
  rw [Host.reduce_eq_fold_single IntOp.andi X init h' hR hu (ix1 r), hinit]
  have hl : hR.lift (ix1 r) (0 : Fin 1) = ix2 r (0 : Fin 1) := by
    funext a; refine Fin.ext ?_
    match a with
    | ⟨0, _⟩ => rfl
    | ⟨1, _⟩ => rfl
  exact fold_andi_one _ (by show X (hR.lift (ix1 r) (0 : Fin 1)) = 1#1; rw [hl]; exact hX)

/-- The host's sum along the rows of an n-by-m array, started from zero, is at r the sum of row r's m entries. -/
theorem hostReduceAdd_rows {n m : Nat} (y : FVec Ideal ⟨2, ![n, m]⟩ .f32) (init : FVec Ideal ⟨0, ![]⟩ .f32)
    (h' : (⟨2, ![n, m]⟩ : Shape).ReducesTo [1] ⟨1, ![n]⟩) (hu : 0 < (⟨0, ![]⟩ : Shape).numel) (r : Fin n)
    (hinit : init (Shape.Idx.first hu) = 0) :
    Host.reduceAdd y init h' hu (ix1 r) = ∑ j : Fin m, y (ix2 r j) := by
  have hR : (⟨2, ![n, m]⟩ : Shape).Reduces [1] ⟨1, ![n]⟩ := ⟨h'.1, Nat.one_pos, h'.2⟩
  rw [hostReduceAdd_apply, Ideal.hostReduceAdd_single h' hR, hinit, zero_add]
  refine Finset.sum_congr rfl fun k _ => congrArg y ?_
  funext a; refine Fin.ext ?_
  match a with
  | ⟨0, _⟩ => rfl
  | ⟨1, _⟩ => rfl

end General

/-! ## The index rows -/

/-- Row k of the pairs, flattened, read at r is the pair array's entry (k, r). -/
theorem pairRow_apply (k : Nat) (hk : k < 2) (h : S2x1000000.Slices ![k, 0] S1x1000000) (idx : IVec S2x1000000 32)
    (r : Fin 1000000) : Cert.RefTerm.pairRow k h idx (ix1 r) = idx (ix2 (⟨k, hk⟩ : Fin 2) r) := by
  unfold Cert.RefTerm.pairRow
  refine (shapeCast_1a_a_apply _ _ r).trans ?_
  exact slice2_axis0_apply k idx h (0 : Fin 1) r ⟨k, hk⟩ (Nat.add_zero k).symm

/-- The first row of the pairs. -/
theorem pairRow0_apply (idx : IVec S2x1000000 32) (r : Fin 1000000) :
    Cert.RefTerm.pairRow 0 slices_S2x1000000_S1x1000000_0_0 idx (ix1 r) = idx (ix2 (0 : Fin 2) r) :=
  pairRow_apply 0 (by decide) _ idx r

/-- The second row of the pairs. -/
theorem pairRow1_apply (idx : IVec S2x1000000 32) (r : Fin 1000000) :
    Cert.RefTerm.pairRow 1 slices_S2x1000000_S1x1000000_1_0 idx (ix1 r) = idx (ix2 (1 : Fin 2) r) :=
  pairRow_apply 1 (by decide) _ idx r

/-! ## An index word that names a column -/

/-- A word below 4096 is not below zero as a signed number. -/
theorem not_slt_zero {w : BitVec 32} (h : w.toNat < 4096) : IntOp.cmpi .slt w 0#32 ≠ 1#1 := fun hc =>
  absurd ((StableHlo.Predicate.slt_iff_toNat (a := w) (b := 0#32) (by omega) (by decide)).mp hc) (Nat.not_lt_zero _)

/-- A word below 4096 is at least zero as a signed number. -/
theorem sge_zero {w : BitVec 32} (h : w.toNat < 4096) : IntOp.cmpi .sge w 0#32 = 1#1 :=
  (StableHlo.Predicate.sge_iff_toNat (a := w) (b := 0#32) (by omega) (by decide)).mpr (Nat.zero_le _)

/-- A word below 4096 is at most 4095 as a signed number. -/
theorem sle_4095 {w : BitVec 32} (h : w.toNat < 4096) : IntOp.cmpi .sle w 4095#32 = 1#1 :=
  (StableHlo.Predicate.sle_iff_toNat (a := w) (b := 4095#32) (by omega) (by decide)).mpr
    (by show w.toNat ≤ 4095; omega)

/-- The wrapped index of a word below 4096 is the word itself: it is not negative, so nothing is added. -/
theorem wrapped_apply (ids : IVec S1000000 32) (r : Fin 1000000) (h : (ids (ix1 r)).toNat < 4096) :
    Cert.RefTerm.wrapped ids (ix2 r (0 : Fin 1)) = ids (ix1 r) := by
  unfold Cert.RefTerm.wrapped
  refine (broadcastInDim_apply _ _ _ (ix2 r (0 : Fin 1)) (ix1 r) (fun a => ?_)).trans ?_
  · match a with
    | ⟨0, _⟩ => exact keep_coord 1000000 _ (by decide)
  · rw [select_apply, cmpi_apply, bcast_constantI]
    exact if_neg (not_slt_zero h)

/-- Both bound tests hold at a word below 4096, so the conjunction over the one-entry axis is the bit 1. -/
theorem inBounds_apply (ids : IVec S1000000 32) (r : Fin 1000000) (h : (ids (ix1 r)).toNat < 4096) :
    Cert.RefTerm.inBounds ids (ix1 r) = 1#1 := by
  unfold Cert.RefTerm.inBounds
  refine reduce_andi_unit_col _ _ _ _ r rfl ?_
  rw [andi_apply, cmpi_apply, cmpi_apply, bcast_constantI, bcast_bcast_constantI, wrapped_apply ids r h, sge_zero h,
    sle_4095 h]
  rfl

/-! ## One take of columns -/

/-- A take of columns at a word below 4096 reads the column the word names. -/
theorem takeCols_apply (W : FVec Ideal S128x4096 .f32) (ids : IVec S1000000 32) (j : Fin 128) (r : Fin 1000000)
    (h : (ids (ix1 r)).toNat < 4096) :
    Cert.RefTerm.takeCols (F := Ideal) W ids (ix2 j r) = W (ix2 j (Cert.Spec.colOf (ids (ix1 r)))) := by
  unfold Cert.RefTerm.takeCols
  rw [select_apply]
  have hc : broadcastInDim S128x1000000 ![1] bcast_S1000000_S128x1000000_1 (Cert.RefTerm.inBounds ids) (ix2 j r)
      = 1#1 := by
    refine (broadcastInDim_apply _ _ _ (ix2 j r) (ix1 r) (fun a => ?_)).trans (inBounds_apply ids r h)
    match a with
    | ⟨0, _⟩ => exact keep_coord 1000000 _ (by decide)
  rw [hc, select_one]
  show Host.gather (GatherCols.colDims 128 4096 1000000
    gather_S128x4096_S1000000x1_S128x1000000_0_1_n_n_1_1_1281_wf) W (Cert.RefTerm.wrapped ids) (ix2 j r) = _
  refine (GatherCols.gather_cols_apply (by decide) _ W (Cert.RefTerm.wrapped ids) (ix2 j r)).trans ?_
  refine congrArg W (funext fun a => Fin.ext ?_)
  match a with
  | ⟨0, _⟩ => rfl
  | ⟨1, _⟩ =>
    show min (Cert.RefTerm.wrapped ids (ix2 r (0 : Fin 1))).toInt.toNat (4096 - 1)
      = (Cert.Spec.colOf (ids (ix1 r))).val
    rw [wrapped_apply ids r h, Cert.Spec.colOf_val h, StableHlo.Predicate.toInt_eq_toNat_of_lt (by omega),
      Int.toNat_natCast]
    omega

/-! ## The interactions -/

/-- Entry (r, j) of the products is the specification's interaction of pair r at j. -/
theorem products_apply (idx : IVec S2x1000000 32) (W1 W2 : FVec Ideal S128x4096 .f32) (hin : Cert.Spec.InRange idx)
    (r : Fin 1000000) (j : Fin 128) :
    Cert.RefTerm.products (F := Ideal) idx W1 W2 (ix2 r j) = Cert.Spec.interaction idx W1 W2 r j := by
  unfold Cert.RefTerm.products
  rw [mulf_apply, transpose_ix2_apply, transpose_ix2_apply]
  have h0 := pairRow0_apply idx r
  have h1 := pairRow1_apply idx r
  rw [takeCols_apply W1 _ j r (by rw [h0]; exact hin _), takeCols_apply W2 _ j r (by rw [h1]; exact hin _), h0, h1]
  rfl

/-! ## The row norms and the quotient -/

/-- The norm of row r: the square root of the sum of the row's 128 squares. -/
theorem rowNorms_apply (x : FVec Ideal S1000000x128 .f32) (r : Fin 1000000) :
    Cert.RefTerm.rowNorms (F := Ideal) x (ix2 r (0 : Fin 1))
      = Ideal.sqrt (∑ j : Fin 128, x (ix2 r j) * x (ix2 r j)) := by
  unfold Cert.RefTerm.rowNorms
  rw [hostSqrt_apply]
  refine congrArg Ideal.sqrt ?_
  refine (broadcastInDim_apply _ _ _ (ix2 r (0 : Fin 1)) (ix1 r) (fun a => ?_)).trans ?_
  · match a with
    | ⟨0, _⟩ => exact keep_coord 1000000 _ (by decide)
  · refine (hostReduceAdd_rows _ _ _ _ r ?_).trans ?_
    · exact Ideal.ofBits_zero_f32
    · rfl

/-- Entry (r, j) of the unit rows: the entry divided by the larger of its row's norm and the threshold. -/
theorem unitRows_apply (x : FVec Ideal S1000000x128 .f32) (r : Fin 1000000) (j : Fin 128) :
    Cert.RefTerm.unitRows (F := Ideal) x (ix2 r j)
      = Ideal.div (x (ix2 r j)) (max (Ideal.sqrt (∑ j' : Fin 128, x (ix2 r j') * x (ix2 r j'))) Cert.Spec.eps) := by
  unfold Cert.RefTerm.unitRows
  rw [hostDivf_apply]
  refine congrArg (Ideal.div (x (ix2 r j))) ?_
  refine (broadcastInDim_apply _ _ _ (ix2 r j) (ix2 r (0 : Fin 1)) (fun a => ?_)).trans ?_
  · match a with
    | ⟨0, _⟩ => exact keep_coord 1000000 _ (by decide)
    | ⟨1, _⟩ => exact (if_pos rfl).symm
  · rw [maximumf_apply, rowNorms_apply]
    rfl

/-! ## The whole result -/

/-- The reference's result is the specification's function, when every index word names a column. -/
theorem refOut_eq (idx : IVec S2x1000000 32) (W1 W2 : FVec Ideal S128x4096 .f32) (h : Cert.Spec.InRange idx) :
    Cert.RefTerm.refOut (F := Ideal) idx W1 W2 = Cert.Spec.unitInteraction idx W1 W2 := by
  funext i
  obtain ⟨r, j, rfl⟩ : ∃ (r : Fin 1000000) (j : Fin 128), i = ix2 r j := ⟨i 0, i 1, eq_ix2 i⟩
  rw [Cert.Spec.unitInteraction_ix2]
  unfold Cert.RefTerm.refOut
  rw [unitRows_apply]
  have hs : (∑ j' : Fin 128, Cert.RefTerm.products (F := Ideal) idx W1 W2 (ix2 r j')
      * Cert.RefTerm.products (F := Ideal) idx W1 W2 (ix2 r j')) = Cert.Spec.sqNorm idx W1 W2 r := by
    unfold Cert.Spec.sqNorm
    exact Finset.sum_congr rfl fun j' _ => by rw [products_apply idx W1 W2 h r j']
  rw [hs, products_apply idx W1 W2 h r j]
  rfl

end Cert.RefValue

end
-- ==== Proof.lean ====
/-
  The kernel against its reference, on the extended reals.

  Both programs map 1,000,000 index pairs and two projection matrices `W1, W2 : [128, 4096]` to the array whose row
  `r` is the interaction of pair `r` — the elementwise product of column `a r` of `W1` and column `b r` of `W2` —
  divided by the larger of its Euclidean norm and a fixed threshold (`Cert.Spec.unitInteraction`).

  The reference takes the columns with a gather, after wrapping negative indices and with a fill where the wrapped
  index is still out of range; under the precondition that every index is a column number, `0 ≤ index < 4096`, neither
  the wrap nor the fill acts, and its result is the specification (`Cert.RefValue.refOut_eq` over the program's run,
  `Cert.RefRun.run`).

  The kernel transposes each projection to a table and splits it into the table and a residual (the table minus itself,
  zero for real entries: here the finiteness of the projections is used), pads the pairs to a whole number of
  2048-row blocks, and per block and per chunk of 256 pairs multiplies a one-hot matrix of the chunk's indices with the
  tables: a sum against a one-hot row is the one table row the index names. The blocks are written back cut at the
  array's end and together cover it (`Cert.KValue.run`).

  The three frames: the two kernels' from their frame certificates, the reference's from its run. The idealization
  rewrote nothing, so there is nothing to preserve.
-/
import proofs.«403882_j15375982920237_3_alg».proof.Defs
import proofs.«403882_j15375982920237_3_alg».proof.Proof.Gen.Kernel
import proofs.«403882_j15375982920237_3_alg».proof.Proof.Gen.Kernel.Frame
import proofs.«403882_j15375982920237_3_alg».proof.Proof.Gen.KernelIdeal
import proofs.«403882_j15375982920237_3_alg».proof.Proof.Gen.KernelIdeal.Frame
import proofs.«403882_j15375982920237_3_alg».proof.Proof.Gen.KernelIdeal.Value
import proofs.«403882_j15375982920237_3_alg».proof.Proof.Gen.ReferenceIdeal
import proofs.«403882_j15375982920237_3_alg».proof.Proof.Gen.Pre_finite_inputs
import proofs.«403882_j15375982920237_3_alg».proof.Proof.PreDecode
import proofs.«403882_j15375982920237_3_alg».proof.Proof.KValue
import proofs.«403882_j15375982920237_3_alg».proof.Proof.RefRun
import proofs.«403882_j15375982920237_3_alg».proof.Proof.RefValue
import Idealize.ShloMosaic.Adequacy
import Idealize.ShloMosaic.Init

noncomputable section

namespace Cert.Proof

open Idealize.ShloMosaic Idealize.SL.Sem

/-- The word-level kernel runs and leaves its arguments: its frame certificate. -/
theorem frame_kernel : Cert.frame_Kernel := fun m ρ _ => Cert.Kernel.Gen.frame m ρ

/-- The idealized kernel likewise. -/
theorem frame_kernelIdeal : Cert.frame_KernelIdeal := fun m ρ _ => Cert.KernelIdeal.Gen.frame m ρ

/-- The reference runs and leaves its arguments: its run, the result dropped. -/
theorem frame_reference : Cert.frame_ReferenceIdeal := fun m ρ _ =>
  (θ_run Cert.ReferenceIdeal.defs _ _).mono (fun _ h c => (h c).2) (Cert.RefRun.run (F := Ideal) m ρ)

/-- The idealization rewrote no operation. -/
theorem preserves : Cert.preserves_Kernel_KernelIdeal := trivial

/-- Both programs end at the specification's function of arguments that agree. -/
theorem algebraic : Cert.algebraic_KernelIdeal_ReferenceIdeal := by
  intro m ρ m' ρ' hpre hagree
  have hd := fun c => Cert.PreDecode.decode _ _ _ _ _ (hpre c)
  refine ⟨fun c => Cert.KValue.specOf m c,
    Cert.KValue.run m ρ (fun c => (hd c).1) (fun c => (hd c).2.1) (fun c => (hd c).2.2), ?_⟩
  refine (θ_run Cert.ReferenceIdeal.defs _ _).mono (fun r h c => ⟨?_, (h c).2⟩) (Cert.RefRun.run (F := Ideal) m' ρ')
  rw [(h c).1, (hagree c).1, (hagree c).2.2.2.1, (hagree c).2.2.2.2]
  exact Cert.RefValue.refOut_eq _ _ _ (hd c).1

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
